-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : FVec F S64x64 .f32) (main_arg2 : FVec F S64 .f32) (main_arg3 : FVec F S64x64 .f32) (main_arg4 : FVec F S64 .f32) (main_arg5 : FVec F S64 .f32) (main_arg6 : IVec S1600000 32) (main_arg7 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_v13 main_v16
-- ==== Kernel.lean ====
abbrev S100000x64 : Shape := ⟨2, ![100000, 64]⟩
abbrev S64x64 : Shape := ⟨2, ![64, 64]⟩
abbrev S64 : Shape := ⟨1, ![64]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S8x64 : Shape := ⟨2, ![8, 64]⟩
abbrev S5000x64 : Shape := ⟨2, ![5000, 64]⟩

abbrev nBuf : Space → Nat
  | .hbm => 60
  | .vmem => 21
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S_, .f32⟩
  | .hbm, ⟨18, _⟩ => ⟨S100000x64, .f32⟩
  | .hbm, ⟨19, _⟩ => ⟨S1600000x1, .i32⟩
  | .hbm, ⟨20, _⟩ => ⟨S100000x64, .f32⟩
  | .hbm, ⟨21, _⟩ => ⟨S_, .f32⟩
  | .hbm, ⟨22, _⟩ => ⟨S1600000, .f32⟩
  | .hbm, ⟨23, _⟩ => ⟨S_, .f32⟩
  | .hbm, ⟨24, _⟩ => ⟨S100000, .f32⟩
  | .hbm, ⟨25, _⟩ => ⟨S1600000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x64, .f32⟩
  | .hbm, ⟨32, _⟩ => ⟨S100000x64, .f32⟩
  | .hbm, ⟨33, _⟩ => ⟨S64x64, .f32⟩
  | .hbm, ⟨34, _⟩ => ⟨S64x64, .f32⟩
  | .hbm, ⟨35, _⟩ => ⟨S1x64, .f32⟩
  | .hbm, ⟨36, _⟩ => ⟨S100000x64, .f32⟩
  | .hbm, ⟨37, _⟩ => ⟨S8x64, .f32⟩
  | .hbm, ⟨38, _⟩ => ⟨S8x64, .f32⟩
  | .hbm, ⟨39, _⟩ => ⟨S_, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S64, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S1x64, .f32⟩
  | .hbm, ⟨56, _⟩ => ⟨S1x64, .f32⟩
  | .hbm, ⟨57, _⟩ => ⟨S1x64, .f32⟩
  | .hbm, ⟨58, _⟩ => ⟨S1x64, .f32⟩
  | .hbm, ⟨59, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S8x64, .f32⟩
  | .local _ .vmem, ⟨10, _⟩ => ⟨S8x64, .f32⟩
  | .local _ .vmem, ⟨11, _⟩ => ⟨S8x64, .f32⟩
  | .local _ .vmem, ⟨12, _⟩ => ⟨S8x64, .f32⟩
  | .local _ .vmem, ⟨13, _⟩ => ⟨S5000x64, .f32⟩
  | .local _ .vmem, ⟨14, _⟩ => ⟨S5000x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S5000x64, .f32⟩
  | .local _ .vmem, ⟨20, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22_0 : Ref sig .tc := ⟨.hbm, 36, rfl⟩
abbrev main_v22_1 : Ref sig .tc := ⟨.hbm, 37, rfl⟩
abbrev main_v22_2 : Ref sig .tc := ⟨.hbm, 38, rfl⟩
abbrev main_cst_4 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_8 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v45 : BitVec 1 := Scalar.cmpi .eq arg0 c19_i32
  let v46 : BitVec 32 := Scalar.extui v45
  let c0_i32_25 : BitVec 32 := 0#32
  let v47 : BitVec 1 := Scalar.cmpi .ne v46 c0_i32_25
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  shapeCasts_S64_S1x64 : S64.ShapeCasts S1x64
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S64 : S5000x64.Reduces [0] S64
  broadcasts_S1x64_S8x64 : S1x64.Broadcasts S8x64
  reducesTo_S8x64_S64_d0 : S8x64.ReducesTo [0] S64
  h_S_ : 0 < S_.numel
  bcast_S_S64 : S_.BroadcastsInDim S64 (![] : Fin 0 → Fin S64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x64.size a ≤ S8x64.size a
  hwx0_6 : ∀ i : grid0.Coords, EltTy.bits .f32 = 32 ∨ (Rect.block (s := S8x64) S8x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x64.size a ≤ S8x64.size a
  hwx0_7 : ∀ i : grid0.Coords, EltTy.bits .f32 = 32 ∨ (Rect.block (s := S8x64) S8x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22_0) S5000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v22_1) S8x64.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22_2) S8x64.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v22_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 74
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S_, .f32⟩
  | .hbm, ⟨18, _⟩ => ⟨S100000x64, .f32⟩
  | .hbm, ⟨19, _⟩ => ⟨S1600000x1, .i32⟩
  | .hbm, ⟨20, _⟩ => ⟨S100000x64, .f32⟩
  | .hbm, ⟨21, _⟩ => ⟨S_, .f32⟩
  | .hbm, ⟨22, _⟩ => ⟨S1600000, .f32⟩
  | .hbm, ⟨23, _⟩ => ⟨S_, .f32⟩
  | .hbm, ⟨24, _⟩ => ⟨S100000, .f32⟩
  | .hbm, ⟨25, _⟩ => ⟨S1600000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x64, .f32⟩
  | .hbm, ⟨32, _⟩ => ⟨S100000x64, .f32⟩
  | .hbm, ⟨33, _⟩ => ⟨S64x64, .f32⟩
  | .hbm, ⟨34, _⟩ => ⟨S100000x64, .f32⟩
  | .hbm, ⟨35, _⟩ => ⟨S1x64, .f32⟩
  | .hbm, ⟨36, _⟩ => ⟨S100000x64, .f32⟩
  | .hbm, ⟨37, _⟩ => ⟨S100000x64, .f32⟩
  | .hbm, ⟨38, _⟩ => ⟨S64x64, .f32⟩
  | .hbm, ⟨39, _⟩ => ⟨S100000x64, .f32⟩
  | .hbm, ⟨40, _⟩ => ⟨S100000x64, .f32⟩
  | .hbm, ⟨41, _⟩ => ⟨S_, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S1x64, .f32⟩
  | .hbm, ⟨47, _⟩ => ⟨S100000x64, .f32⟩
  | .hbm, ⟨48, _⟩ => ⟨S100000x64, .f32⟩
  | .hbm, ⟨49, _⟩ => ⟨S100000x64, .f32⟩
  | .hbm, ⟨50, _⟩ => ⟨S_, .f32⟩
  | .hbm, ⟨51, _⟩ => ⟨S64, .f32⟩
  | .hbm, ⟨52, _⟩ => ⟨S_, .f32⟩
  | .hbm, ⟨53, _⟩ => ⟨S64, .f32⟩
  | .hbm, ⟨54, _⟩ => ⟨S64, .f32⟩
  | .hbm, ⟨55, _⟩ => ⟨S1x64, .f32⟩
  | .hbm, ⟨56, _⟩ => ⟨S100000x64, .f32⟩
  | .hbm, ⟨57, _⟩ => ⟨S100000x64, .f32⟩
  | .hbm, ⟨58, _⟩ => ⟨S_, .f32⟩
  | .hbm, ⟨59, _⟩ => ⟨S64, .f32⟩
  | .hbm, ⟨60, _⟩ => ⟨S64, .f32⟩
  | .hbm, ⟨61, _⟩ => ⟨S64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000x64, .f32⟩
  | .hbm, ⟨73, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_call0_cst : Ref sig .tc := ⟨.hbm, 71, rfl⟩
abbrev main_call0_v0 : Ref sig .tc := ⟨.hbm, 72, rfl⟩
abbrev main_v52 : Ref sig .tc := ⟨.hbm, 73, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KI.Body.lean ====
import proofs.«175345_j15779709845544_1_alg».proof.Proof.Gen.KernelIdeal.Launch
import proofs.«175345_j15779709845544_1_alg».proof.Proof.Gen.KernelIdeal.Skeleton
import proofs.«175345_j15779709845544_1_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The two kernel bodies as triples over explicit contents

The first kernel's body has two branches on the grid coordinate: at the first point it clears the two
accumulators, at the last it copies them to the two summary outputs.  So three control cases meet the grid:
the first point, a middle point, the last point.  In every case the body stores the tile's linear output
(the payload `k0_pay5` of the five input blocks) into the output block and adds the tile's scaled column sums
(of the values and of their squares) into the two accumulators. -/

theorem hz2 : (![0, 0] : Fin 2 → Nat) = fun _ => 0 := funext fun a => by fin_cases a <;> rfl

/-- The grid coordinate is the first point's. -/
abbrev cond1 (i : grid0.Coords) : Prop := (Scalar.cmpi .ne (Scalar.extui (Scalar.cmpi .eq (BitVec.ofNat 32 (i 0).val) 0#32)) 0#32) = 1#1
/-- The grid coordinate is the last point's. -/
abbrev cond2 (i : grid0.Coords) : Prop := k0_cond2 i = 1#1

/-- The tile's output block: both products plus the bias row. -/
def outB (x1 x2 : Vec F S5000x64 .f32) (x3 : Vec F S64x64 .f32) (x4 : Vec F S1x64 .f32) (x5 : Vec F S64x64 .f32) : Vec F S5000x64 .f32 := k0_pay5 x1 x2 x3 x5 x4
/-- The sums accumulator after a tile: what it held plus an eighth of the tile's column sums. -/
def stepS (x1 x2 : Vec F S5000x64 .f32) (x3 : Vec F S64x64 .f32) (x4 : Vec F S1x64 .f32) (x5 : Vec F S64x64 .f32) (s : Vec F S8x64 .f32) : Vec F S8x64 .f32 := k0_pay1 (k0_pay7 x1 x2 x3 x5 x4 s)
/-- The squares accumulator after a tile. -/
def stepQ (x1 x2 : Vec F S5000x64 .f32) (x3 : Vec F S64x64 .f32) (x4 : Vec F S1x64 .f32) (x5 : Vec F S64x64 .f32) (q : Vec F S8x64 .f32) : Vec F S8x64 .f32 := k0_pay2 (k0_pay6 x1 x2 x3 x5 x4) q

/-- A buffer written once through its whole rectangle reads back as the payload. -/
theorem read_writes_whole {S : Shape} {e : EltTy} {sp : Space} (v : View sig .tc sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩), View.canon_unit_zero h]

/-- A buffer whose LAST write went through its whole rectangle reads back as that payload. -/
theorem read_writes_whole_cons {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero h inb y⟩), View.canon_cons_unit_zero h]

set_option maxHeartbeats 4000000 in
/-- A middle point: the accumulators hold `s`, `q`; the summary outputs' buffers are handed back untouched. -/
theorem run0_B (c : Dev nD) (i : grid0.Coords) (E : Set ℕ)
    (a1 : Memref sig .tc .vmem S5000x64 .f32) (h1 : a1.IsWhole) (a2 : Memref sig .tc .vmem S5000x64 .f32) (h2 : a2.IsWhole)
    (a3 : Memref sig .tc .vmem S64x64 .f32) (h3 : a3.IsWhole) (a4 : Memref sig .tc .vmem S1x64 .f32) (h4 : a4.IsWhole)
    (a5 : Memref sig .tc .vmem S64x64 .f32) (h5 : a5.IsWhole) (a6 : Memref sig .tc .vmem S5000x64 .f32) (h6 : a6.IsWhole)
    (a7 : Memref sig .tc .vmem S8x64 .f32) (h7 : a7.IsWhole) (a8 : Memref sig .tc .vmem S8x64 .f32) (h8 : a8.IsWhole)
    (a9 : Memref sig .tc .vmem S8x64 .f32) (h9 : a9.IsWhole) (a10 : Memref sig .tc .vmem S8x64 .f32) (h10 : a10.IsWhole)
    (hc1 : ¬cond1 i) (hc2 : ¬cond2 i) (x1 x2 : Vec F S5000x64 .f32) (x3 : Vec F S64x64 .f32) (x4 : Vec F S1x64 .f32) (x5 : Vec F S64x64 .f32) (y7 y8 s q : Vec F S8x64 .f32) (K : PUnit → sProp 𝕄) :
    iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ (∃ d, owns (c : Thread nD τ) a6 fullShare d)
        ∗ owns (c : Thread nD τ) a7 fullShare y7 ∗ owns (c : Thread nD τ) a8 fullShare y8
        ∗ owns (c : Thread nD τ) a9 fullShare s ∗ owns (c : Thread nD τ) a10 fullShare q
        ∗ (iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ owns (c : Thread nD τ) a6 fullShare (outB x1 x2 x3 x4 x5)
            ∗ owns (c : Thread nD τ) a7 fullShare y7 ∗ owns (c : Thread nD τ) a8 fullShare y8
            ∗ owns (c : Thread nD τ) a9 fullShare (stepS x1 x2 x3 x4 x5 s) ∗ owns (c : Thread nD τ) a10 fullShare (stepQ x1 x2 x3 x4 x5 q)) -∗ K ⟨⟩))
      ⊢ wp frame (wpE (defs₀ (F := F)) Variants.none c none) E (cc0__linear_stats_kernel i a1 h1 a2 h2 a3 h3 a4 h4 a5 h5 a6 h6 a7 h7 a8 h8 a9 h9 a10 h10) K := by
  simp only [cc0__linear_stats_kernel_eq_skeleton]; unfold cc0__linear_stats_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
  obtain rfl := h1.eq_unread hf1; obtain rfl := h2.eq_unread hf2; obtain rfl := h3.eq_unread hf3; obtain rfl := h4.eq_unread hf4; obtain rfl := h5.eq_unread hf5
  obtain rfl := h7.eq_unread hf7; obtain rfl := h8.eq_unread hf8; obtain rfl := h9.eq_unread hf9; obtain rfl := h10.eq_unread hf10
  sl_exec (disch := first | exact hc1 | exact hc2)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    rw [read_writes_whole _ _ hz2]
    (try dsimp only)
    simp only [View.readAt_eq_ld, h1.read_unread, h2.read_unread, h3.read_unread, h4.read_unread, h5.read_unread,
      View.ld_unit_zero (S := S5000x64) hz2, View.ld_unit_zero (S := S64x64) hz2, View.ld_unit_zero (S := S1x64) hz2, View.ld_unit_zero (S := S8x64) hz2]
    (try rfl)
  isplitl [H7]
  · iexists _; isplitr; · ipureintro; exact hf7
    iexact H7
  isplitl [H8]
  · iexists _; isplitr; · ipureintro; exact hf8
    iexact H8
  isplitl [H9]
  · iexists _; isplitr
    swap; · iexact H9
    ipureintro
    rw [read_writes_whole _ _ hz2]
    (try dsimp only)
    simp only [View.readAt_eq_ld, h1.read_unread, h2.read_unread, h3.read_unread, h4.read_unread, h5.read_unread,
      View.ld_unit_zero (S := S5000x64) hz2, View.ld_unit_zero (S := S64x64) hz2, View.ld_unit_zero (S := S1x64) hz2, View.ld_unit_zero (S := S8x64) hz2, h9.read_unread]
    (try rfl)
  · iexists _; isplitr
    swap; · iexact H10
    ipureintro
    rw [read_writes_whole _ _ hz2]
    (try dsimp only)
    simp only [View.readAt_eq_ld, h1.read_unread, h2.read_unread, h3.read_unread, h4.read_unread, h5.read_unread,
      View.ld_unit_zero (S := S5000x64) hz2, View.ld_unit_zero (S := S64x64) hz2, View.ld_unit_zero (S := S1x64) hz2, View.ld_unit_zero (S := S8x64) hz2, h10.read_unread]
    (try rfl)

set_option maxHeartbeats 4000000 in
/-- The first point: the accumulators are cleared (to `k0_pay3`, `k0_pay4`) before the tile is added. -/
theorem run0_A (c : Dev nD) (i : grid0.Coords) (E : Set ℕ)
    (a1 : Memref sig .tc .vmem S5000x64 .f32) (h1 : a1.IsWhole) (a2 : Memref sig .tc .vmem S5000x64 .f32) (h2 : a2.IsWhole)
    (a3 : Memref sig .tc .vmem S64x64 .f32) (h3 : a3.IsWhole) (a4 : Memref sig .tc .vmem S1x64 .f32) (h4 : a4.IsWhole)
    (a5 : Memref sig .tc .vmem S64x64 .f32) (h5 : a5.IsWhole) (a6 : Memref sig .tc .vmem S5000x64 .f32) (h6 : a6.IsWhole)
    (a7 : Memref sig .tc .vmem S8x64 .f32) (h7 : a7.IsWhole) (a8 : Memref sig .tc .vmem S8x64 .f32) (h8 : a8.IsWhole)
    (a9 : Memref sig .tc .vmem S8x64 .f32) (h9 : a9.IsWhole) (a10 : Memref sig .tc .vmem S8x64 .f32) (h10 : a10.IsWhole)
    (hc1 : cond1 i) (hc2 : ¬cond2 i) (x1 x2 : Vec F S5000x64 .f32) (x3 : Vec F S64x64 .f32) (x4 : Vec F S1x64 .f32) (x5 : Vec F S64x64 .f32) (y7 y8 : Vec F S8x64 .f32) (K : PUnit → sProp 𝕄) :
    iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ (∃ d, owns (c : Thread nD τ) a6 fullShare d)
        ∗ owns (c : Thread nD τ) a7 fullShare y7 ∗ owns (c : Thread nD τ) a8 fullShare y8
        ∗ (∃ d, owns (c : Thread nD τ) a9 fullShare d) ∗ (∃ d, owns (c : Thread nD τ) a10 fullShare d)
        ∗ (iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ owns (c : Thread nD τ) a6 fullShare (outB x1 x2 x3 x4 x5)
            ∗ owns (c : Thread nD τ) a7 fullShare y7 ∗ owns (c : Thread nD τ) a8 fullShare y8
            ∗ owns (c : Thread nD τ) a9 fullShare (stepS x1 x2 x3 x4 x5 k0_pay3) ∗ owns (c : Thread nD τ) a10 fullShare (stepQ x1 x2 x3 x4 x5 k0_pay4)) -∗ K ⟨⟩))
      ⊢ wp frame (wpE (defs₀ (F := F)) Variants.none c none) E (cc0__linear_stats_kernel i a1 h1 a2 h2 a3 h3 a4 h4 a5 h5 a6 h6 a7 h7 a8 h8 a9 h9 a10 h10) K := by
  simp only [cc0__linear_stats_kernel_eq_skeleton]; unfold cc0__linear_stats_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
  obtain rfl := h1.eq_unread hf1; obtain rfl := h2.eq_unread hf2; obtain rfl := h3.eq_unread hf3; obtain rfl := h4.eq_unread hf4; obtain rfl := h5.eq_unread hf5
  obtain rfl := h7.eq_unread hf7; obtain rfl := h8.eq_unread hf8
  sl_exec (disch := first | exact hc1 | exact hc2)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    (try sl_unfold_words)
    first | rw [read_writes_whole _ _ hz2] | rw [read_writes_whole_cons _ _ hz2]
    (try dsimp only)
    simp only [View.readAt_eq_ld, h1.read_unread, h2.read_unread, h3.read_unread, h4.read_unread, h5.read_unread,
      View.ld_unit_zero (S := S5000x64) hz2, View.ld_unit_zero (S := S64x64) hz2, View.ld_unit_zero (S := S1x64) hz2, View.ld_unit_zero (S := S8x64) hz2, View.readCov_unit_zero (S := S8x64) _ hz2]
    (try rfl)
  isplitl [H7]
  · iexists _; isplitr; · ipureintro; exact hf7
    iexact H7
  isplitl [H8]
  · iexists _; isplitr; · ipureintro; exact hf8
    iexact H8
  isplitl [H9]
  · iexists _; isplitr
    swap; · iexact H9
    ipureintro
    (try sl_unfold_words)
    first | rw [read_writes_whole _ _ hz2] | rw [read_writes_whole_cons _ _ hz2]
    (try dsimp only)
    simp only [View.readAt_eq_ld, h1.read_unread, h2.read_unread, h3.read_unread, h4.read_unread, h5.read_unread,
      View.ld_unit_zero (S := S5000x64) hz2, View.ld_unit_zero (S := S64x64) hz2, View.ld_unit_zero (S := S1x64) hz2, View.ld_unit_zero (S := S8x64) hz2, View.readCov_unit_zero (S := S8x64) _ hz2]
    (try rfl)
  · iexists _; isplitr
    swap; · iexact H10
    ipureintro
    (try sl_unfold_words)
    first | rw [read_writes_whole _ _ hz2] | rw [read_writes_whole_cons _ _ hz2]
    (try dsimp only)
    simp only [View.readAt_eq_ld, h1.read_unread, h2.read_unread, h3.read_unread, h4.read_unread, h5.read_unread,
      View.ld_unit_zero (S := S5000x64) hz2, View.ld_unit_zero (S := S64x64) hz2, View.ld_unit_zero (S := S1x64) hz2, View.ld_unit_zero (S := S8x64) hz2, View.readCov_unit_zero (S := S8x64) _ hz2]
    (try rfl)

set_option maxHeartbeats 4000000 in
/-- The last point: after the tile is added the accumulators are copied into the two summary outputs' buffers. -/
theorem run0_C (c : Dev nD) (i : grid0.Coords) (E : Set ℕ)
    (a1 : Memref sig .tc .vmem S5000x64 .f32) (h1 : a1.IsWhole) (a2 : Memref sig .tc .vmem S5000x64 .f32) (h2 : a2.IsWhole)
    (a3 : Memref sig .tc .vmem S64x64 .f32) (h3 : a3.IsWhole) (a4 : Memref sig .tc .vmem S1x64 .f32) (h4 : a4.IsWhole)
    (a5 : Memref sig .tc .vmem S64x64 .f32) (h5 : a5.IsWhole) (a6 : Memref sig .tc .vmem S5000x64 .f32) (h6 : a6.IsWhole)
    (a7 : Memref sig .tc .vmem S8x64 .f32) (h7 : a7.IsWhole) (a8 : Memref sig .tc .vmem S8x64 .f32) (h8 : a8.IsWhole)
    (a9 : Memref sig .tc .vmem S8x64 .f32) (h9 : a9.IsWhole) (a10 : Memref sig .tc .vmem S8x64 .f32) (h10 : a10.IsWhole)
    (hc1 : ¬cond1 i) (hc2 : cond2 i) (x1 x2 : Vec F S5000x64 .f32) (x3 : Vec F S64x64 .f32) (x4 : Vec F S1x64 .f32) (x5 : Vec F S64x64 .f32) (s q : Vec F S8x64 .f32) (K : PUnit → sProp 𝕄) :
    iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ (∃ d, owns (c : Thread nD τ) a6 fullShare d)
        ∗ (∃ d, owns (c : Thread nD τ) a7 fullShare d) ∗ (∃ d, owns (c : Thread nD τ) a8 fullShare d)
        ∗ owns (c : Thread nD τ) a9 fullShare s ∗ owns (c : Thread nD τ) a10 fullShare q
        ∗ (iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ owns (c : Thread nD τ) a6 fullShare (outB x1 x2 x3 x4 x5)
            ∗ owns (c : Thread nD τ) a7 fullShare (stepS x1 x2 x3 x4 x5 s) ∗ owns (c : Thread nD τ) a8 fullShare (stepQ x1 x2 x3 x4 x5 q)
            ∗ owns (c : Thread nD τ) a9 fullShare (stepS x1 x2 x3 x4 x5 s) ∗ owns (c : Thread nD τ) a10 fullShare (stepQ x1 x2 x3 x4 x5 q)) -∗ K ⟨⟩))
      ⊢ wp frame (wpE (defs₀ (F := F)) Variants.none c none) E (cc0__linear_stats_kernel i a1 h1 a2 h2 a3 h3 a4 h4 a5 h5 a6 h6 a7 h7 a8 h8 a9 h9 a10 h10) K := by
  simp only [cc0__linear_stats_kernel_eq_skeleton]; unfold cc0__linear_stats_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  obtain rfl := h1.eq_unread hf1; obtain rfl := h2.eq_unread hf2; obtain rfl := h3.eq_unread hf3; obtain rfl := h4.eq_unread hf4; obtain rfl := h5.eq_unread hf5
  obtain rfl := h9.eq_unread hf9; obtain rfl := h10.eq_unread hf10
  sl_exec (disch := first | exact hc1 | exact hc2)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    (try sl_unfold_words)
    first | rw [read_writes_whole _ _ hz2] | rw [read_writes_whole_cons _ _ hz2]
    (try dsimp only)
    simp only [View.readAt_eq_ld, h1.read_unread, h2.read_unread, h3.read_unread, h4.read_unread, h5.read_unread,
      View.ld_unit_zero (S := S5000x64) hz2, View.ld_unit_zero (S := S64x64) hz2, View.ld_unit_zero (S := S1x64) hz2, View.ld_unit_zero (S := S8x64) hz2, View.readCov_unit_zero (S := S8x64) _ hz2]
    (try rfl)
  isplitl [H7]
  · iexists _; isplitr
    swap; · iexact H7
    ipureintro
    (try sl_unfold_words)
    first | rw [read_writes_whole _ _ hz2] | rw [read_writes_whole_cons _ _ hz2]
    (try dsimp only)
    simp only [View.readAt_eq_ld, h1.read_unread, h2.read_unread, h3.read_unread, h4.read_unread, h5.read_unread,
      View.ld_unit_zero (S := S5000x64) hz2, View.ld_unit_zero (S := S64x64) hz2, View.ld_unit_zero (S := S1x64) hz2, View.ld_unit_zero (S := S8x64) hz2, View.readCov_unit_zero (S := S8x64) _ hz2, h9.read_unread]
    (try rfl)
  isplitl [H8]
  · iexists _; isplitr
    swap; · iexact H8
    ipureintro
    (try sl_unfold_words)
    first | rw [read_writes_whole _ _ hz2] | rw [read_writes_whole_cons _ _ hz2]
    (try dsimp only)
    simp only [View.readAt_eq_ld, h1.read_unread, h2.read_unread, h3.read_unread, h4.read_unread, h5.read_unread,
      View.ld_unit_zero (S := S5000x64) hz2, View.ld_unit_zero (S := S64x64) hz2, View.ld_unit_zero (S := S1x64) hz2, View.ld_unit_zero (S := S8x64) hz2, View.readCov_unit_zero (S := S8x64) _ hz2, h10.read_unread]
    (try rfl)
  isplitl [H9]
  · iexists _; isplitr
    swap; · iexact H9
    ipureintro
    (try sl_unfold_words)
    first | rw [read_writes_whole _ _ hz2] | rw [read_writes_whole_cons _ _ hz2]
    (try dsimp only)
    simp only [View.readAt_eq_ld, h1.read_unread, h2.read_unread, h3.read_unread, h4.read_unread, h5.read_unread,
      View.ld_unit_zero (S := S5000x64) hz2, View.ld_unit_zero (S := S64x64) hz2, View.ld_unit_zero (S := S1x64) hz2, View.ld_unit_zero (S := S8x64) hz2, View.readCov_unit_zero (S := S8x64) _ hz2, h9.read_unread]
    (try rfl)
  · iexists _; isplitr
    swap; · iexact H10
    ipureintro
    (try sl_unfold_words)
    first | rw [read_writes_whole _ _ hz2] | rw [read_writes_whole_cons _ _ hz2]
    (try dsimp only)
    simp only [View.readAt_eq_ld, h1.read_unread, h2.read_unread, h3.read_unread, h4.read_unread, h5.read_unread,
      View.ld_unit_zero (S := S5000x64) hz2, View.ld_unit_zero (S := S64x64) hz2, View.ld_unit_zero (S := S1x64) hz2, View.ld_unit_zero (S := S8x64) hz2, View.readCov_unit_zero (S := S8x64) _ hz2, h10.read_unread]
    (try rfl)

set_option maxHeartbeats 4000000 in
/-- The second kernel's body: it stores the normalised, scaled, shifted and clamped block (the payload `k1_pay1`). -/
theorem run1 (c : Dev nD) (i : grid1.Coords) (E : Set ℕ)
    (a1 : Memref sig .tc .vmem S5000x64 .f32) (h1 : a1.IsWhole) (a2 : Memref sig .tc .vmem S1x64 .f32) (h2 : a2.IsWhole)
    (a3 : Memref sig .tc .vmem S1x64 .f32) (h3 : a3.IsWhole) (a4 : Memref sig .tc .vmem S1x64 .f32) (h4 : a4.IsWhole)
    (a5 : Memref sig .tc .vmem S1x64 .f32) (h5 : a5.IsWhole) (a6 : Memref sig .tc .vmem S5000x64 .f32) (h6 : a6.IsWhole)
    (x1 : Vec F S5000x64 .f32) (x2 x3 x4 x5 : Vec F S1x64 .f32) (K : PUnit → sProp 𝕄) :
    iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ (∃ d, owns (c : Thread nD τ) a6 fullShare d)
        ∗ (iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ owns (c : Thread nD τ) a6 fullShare (k1_pay1 x1 x2 x3 x4 x5)) -∗ K ⟨⟩))
      ⊢ wp frame (wpE (defs₀ (F := F)) Variants.none c none) E (cc1__bn_relu_kernel i a1 h1 a2 h2 a3 h3 a4 h4 a5 h5 a6 h6) K := by
  simp only [cc1__bn_relu_kernel_eq_skeleton]; unfold cc1__bn_relu_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := h1.eq_unread hf1; obtain rfl := h2.eq_unread hf2; obtain rfl := h3.eq_unread hf3; obtain rfl := h4.eq_unread hf4; obtain rfl := h5.eq_unread hf5
  sl_exec
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  · iexists _; isplitr
    swap; · iexact H6
    ipureintro
    (try sl_unfold_words)
    first | rw [read_writes_whole _ _ hz2] | rw [read_writes_whole_cons _ _ hz2]
    (try dsimp only)
    simp only [View.readAt_eq_ld, h1.read_unread, h2.read_unread, h3.read_unread, h4.read_unread, h5.read_unread,
      View.ld_unit_zero (S := S5000x64) hz2, View.ld_unit_zero (S := S64x64) hz2, View.ld_unit_zero (S := S1x64) hz2, View.ld_unit_zero (S := S8x64) hz2, View.readCov_unit_zero (S := S8x64) _ hz2]
    (try rfl)

end Cert.KernelIdeal.Hand
end
-- ==== Proof.KI.Dat0.lean ====
import proofs.«175345_j15779709845544_1_alg».proof.Proof.KI.Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel region: blocks, accumulators point by point, proof data, body obligation

Stated at a parameter `V`: the core's buffer contents when the region is entered. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The five input blocks at a point, at their literal types: rows of the node features and of the neighbour means,
    the two transposed weight matrices, the bias row. -/
abbrev B1 (c : Dev nD) (t : Fin cfg0.N) : Vec F S5000x64 .f32 := iblk0 V c 0 t
abbrev B2 (c : Dev nD) (t : Fin cfg0.N) : Vec F S5000x64 .f32 := iblk0 V c 1 t
abbrev B3 (c : Dev nD) (t : Fin cfg0.N) : Vec F S64x64 .f32 := iblk0 V c 2 t
abbrev B4 (c : Dev nD) (t : Fin cfg0.N) : Vec F S1x64 .f32 := iblk0 V c 3 t
abbrev B5 (c : Dev nD) (t : Fin cfg0.N) : Vec F S64x64 .f32 := iblk0 V c 4 t

/-- THE ACCUMULATION: what the two accumulators hold after point `n` — cleared at the first point, then each point
    adds its tile's scaled column sums. -/
def scAt (c : Dev nD) : (n : ℕ) → n < cfg0.N → Vec F S8x64 .f32 × Vec F S8x64 .f32
  | 0, hn => (stepS (B1 V c ⟨0, hn⟩) (B2 V c ⟨0, hn⟩) (B3 V c ⟨0, hn⟩) (B4 V c ⟨0, hn⟩) (B5 V c ⟨0, hn⟩) k0_pay3,
      stepQ (B1 V c ⟨0, hn⟩) (B2 V c ⟨0, hn⟩) (B3 V c ⟨0, hn⟩) (B4 V c ⟨0, hn⟩) (B5 V c ⟨0, hn⟩) k0_pay4)
  | n + 1, hn => (stepS (B1 V c ⟨n + 1, hn⟩) (B2 V c ⟨n + 1, hn⟩) (B3 V c ⟨n + 1, hn⟩) (B4 V c ⟨n + 1, hn⟩) (B5 V c ⟨n + 1, hn⟩) (scAt c n (Nat.lt_of_succ_lt hn)).1,
      stepQ (B1 V c ⟨n + 1, hn⟩) (B2 V c ⟨n + 1, hn⟩) (B3 V c ⟨n + 1, hn⟩) (B4 V c ⟨n + 1, hn⟩) (B5 V c ⟨n + 1, hn⟩) (scAt c n (Nat.lt_of_succ_lt hn)).2)

theorem scAt_zero (c : Dev nD) (t : Fin cfg0.N) (h : t.val = 0) :
    scAt V c t.val t.isLt = (stepS (B1 V c t) (B2 V c t) (B3 V c t) (B4 V c t) (B5 V c t) k0_pay3, stepQ (B1 V c t) (B2 V c t) (B3 V c t) (B4 V c t) (B5 V c t) k0_pay4) := by
  obtain ⟨n, hn⟩ := t
  cases n with
  | zero => rfl
  | succ n => exact absurd h (Nat.succ_ne_zero n)

theorem scAt_pos (c : Dev nD) (t : Fin cfg0.N) (h : t.val ≠ 0) :
    scAt V c t.val t.isLt = (stepS (B1 V c t) (B2 V c t) (B3 V c t) (B4 V c t) (B5 V c t) (scAt V c (t.val - 1) (Nat.lt_of_le_of_lt (Nat.sub_le _ _) t.isLt)).1,
      stepQ (B1 V c t) (B2 V c t) (B3 V c t) (B4 V c t) (B5 V c t) (scAt V c (t.val - 1) (Nat.lt_of_le_of_lt (Nat.sub_le _ _) t.isLt)).2) := by
  obtain ⟨n, hn⟩ := t
  cases n with
  | zero => exact absurd rfl h
  | succ n => rfl

/-! ## The branch conditions over the grid, and where the summary windows are idle -/

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val = 19 :=
  (by decide +kernel : ∀ t : Fin grid0.N, cond2 (grid0.coords t) ↔ t.val = 19)
theorem idleAt0_6 : ∀ t : Fin cfg0.N, ¬cond2 (grid0.coords t) → cfg0.idle 6 (grid0.coords t) = true := by decide +kernel
theorem idleAt0_7 : ∀ t : Fin cfg0.N, ¬cond2 (grid0.coords t) → cfg0.idle 7 (grid0.coords t) = true := by decide +kernel
theorem noFlush0_6 : ∀ t : Fin cfg0.N, ¬cond2 (grid0.coords t) → (cfg0.win 6).flush t = false := by decide +kernel
theorem noFlush0_7 : ∀ t : Fin cfg0.N, ¬cond2 (grid0.coords t) → (cfg0.win 7).flush t = false := by decide +kernel
theorem liveAt0_6 : ∀ t : Fin cfg0.N, cond2 (grid0.coords t) → cfg0.idle 6 (grid0.coords t) = false := by decide +kernel
theorem liveAt0_7 : ∀ t : Fin cfg0.N, cond2 (grid0.coords t) → cfg0.idle 7 (grid0.coords t) = false := by decide +kernel

/-! ## The invariant: the accumulators at their contents -/

/-- The two accumulators, whole scoped buffers of the kernel's own. -/
abbrev scM0 : Memref sig .tc .vmem S8x64 .f32 := Memref.whole cc0_scratch0
abbrev scM1 : Memref sig .tc .vmem S8x64 .f32 := Memref.whole cc0_scratch1

/-- The core's other scoped buffers that this region stages nothing in (the second region's staging buffers), each whole at
    some contents. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

theorem PhiA0_eq (c : Dev nD) :
    (Pipeline.ΦA spec0 c : sProp 𝕄)
      = iprop(((∃ d, owns (c : Thread nD τ) scM0 fullShare d) ∗ (∃ d, owns (c : Thread nD τ) scM1 fullShare d) ∗ restS c) ∗ (∃ r, prngReg c r)) := by
  unfold Pipeline.ΦA restS; rw [scopedRest0_eq]; simp only [scM0, scM1, owns_whole]; try rfl

/-- The region invariant before position `n`: before the first point every scoped buffer at anything; afterwards the two
    accumulators at what the point before left in them. -/
def PhiS (c : Dev nD) : (n : ℕ) → n ≤ cfg0.N → sProp 𝕄
  | 0, _ => Pipeline.ΦA spec0 c
  | n + 1, hn => iprop((owns (c : Thread nD τ) scM0 fullShare (scAt V c n hn).1 ∗ owns (c : Thread nD τ) scM1 fullShare (scAt V c n hn).2 ∗ restS c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) scM0 fullShare (scAt V c n hn).1 ∗ owns (c : Thread nD τ) scM1 fullShare (scAt V c n hn).2 ∗ restS c) ∗ (∃ r, prngReg c r)) := rfl
theorem PhiS_pos (c : Dev nD) (n : ℕ) (h : n ≤ cfg0.N) (hz : n ≠ 0) :
    PhiS V c n h = iprop((owns (c : Thread nD τ) scM0 fullShare (scAt V c (n - 1) (by omega)).1 ∗ owns (c : Thread nD τ) scM1 fullShare (scAt V c (n - 1) (by omega)).2 ∗ restS c) ∗ (∃ r, prngReg c r)) := by
  cases n with
  | zero => exact absurd rfl hz
  | succ n => rfl

/-! ## The proof data -/

/-- The arrays as the region finds them; after the body at point `t` each input's buffer at its block, the output's at the
    tile's linear output, the two summary outputs' at the accumulators (read only at the last point, where the body
    copies them); the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => outB (B1 V c t) (B2 V c t) (B3 V c t) (B4 V c t) (B5 V c t)
    | ⟨6, _⟩ => (scAt V c t.val t.isLt).1
    | ⟨7, _⟩ => (scAt V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = outB (B1 V c t) (B2 V c t) (B3 V c t) (B4 V c t) (B5 V c t) := by dsimp only [dat0]
theorem after0_6 (c : Dev nD) (t : Fin cfg0.N) : (dat0 V c).after 6 t = (scAt V c t.val t.isLt).1 := by dsimp only [dat0]
theorem after0_7 (c : Dev nD) (t : Fin cfg0.N) : (dat0 V c).after 7 t = (scAt V c t.val t.isLt).2 := by dsimp only [dat0]

theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d
theorem before0_4 (c : Dev nD) (t : Fin cfg0.N) (d) : (dat0 V c).before 4 t d = iblk0 V c 4 t := before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t ∗ (dat0 V c).leavesExact 7 t)

theorem leaves_live (c : Dev nD) (w : Fin cfg0.W) (t : Fin cfg0.N) (h : cfg0.idle w (grid0.coords t) = false) :
    (dat0 V c).leavesExact w t = owns (c : Thread nD τ) ((cfg0.win w).stage (cfg0.slots t w)) fullShare ((dat0 V c).after w t) := by
  unfold Dat.leavesExact; rw [h]

set_option maxHeartbeats 4800000 in
/-- The body at any point: the inputs' buffers hold their blocks; the grid coordinate says which of the three cases the
    point is in; the invariant hands the body the accumulators at what the point before left (at anything at the first
    point) and takes them back at this point's contents; the summary outputs' buffers pass through untouched except at
    the last point, where they receive the accumulators. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 20 := lt_of_lt_of_eq t.isLt (show cfg0.N = 20 from N_0)
  rw [leaves_live V c 0 t rfl, leaves_live V c 1 t rfl, leaves_live V c 2 t rfl, leaves_live V c 3 t rfl, leaves_live V c 4 t rfl,
    leaves_live V c 5 t rfl, after0_0, after0_1, after0_2, after0_3, after0_4, after0_5]
  by_cases h0 : t.val = 0
  · have hc1 : cond1 (grid0.coords t) := (hcond1 t).mpr h0
    have hc2 : ¬cond2 (grid0.coords t) := fun h => by have := (hcond2 t).mp h; omega
    rw [Dat.leavesExact_idle (dat0 V c) 6 t (idleAt0_6 t hc2) (noFlush0_6 t hc2), Dat.leavesExact_idle (dat0 V c) 7 t (idleAt0_7 t hc2) (noFlush0_7 t hc2)]
    rw [scAt_zero V c t h0]
    rw [PhiS_castSucc V c t, PhiS_zero V c _ _ h0, PhiA0_eq]
    iintro ⟨⟨⟨⟨%ds0, HS0⟩, ⟨%ds1, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run0_A c (grid0.coords t) Set.univ _ _ _ _ _ _ _ _ _ _ _ _ _ _ _ _ _ _ _ _ hc1 hc2 (B1 V c t) (B2 V c t) (B3 V c t) (B4 V c t) (B5 V c t) _ _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexists _; iexact HS0
    isplitl [HS1]; · iexists _; iexact HS1
    iintro ⟨H0, H1, H2, H3, H4, H5, H6, H7, HS0, HS1⟩
    isplitl [HS0 HS1 Hrest Hg]
    · isplitl [HS0 HS1 Hrest]
      · isplitl [HS0]; · iexact HS0
        isplitl [HS1]; · iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · have hc1 : ¬cond1 (grid0.coords t) := fun h => h0 ((hcond1 t).mp h)
    by_cases h19 : t.val = 19
    · have hc2 : cond2 (grid0.coords t) := (hcond2 t).mpr h19
      rw [leaves_live V c 6 t (liveAt0_6 t hc2), leaves_live V c 7 t (liveAt0_7 t hc2), after0_6, after0_7]
      rw [scAt_pos V c t h0]
      rw [PhiS_castSucc V c t, PhiS_pos V c _ _ h0]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run0_C c (grid0.coords t) Set.univ _ _ _ _ _ _ _ _ _ _ _ _ _ _ _ _ _ _ _ _ hc1 hc2 (B1 V c t) (B2 V c t) (B3 V c t) (B4 V c t) (B5 V c t) _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0]; · iexact HS0
          isplitl [HS1]; · iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc2 : ¬cond2 (grid0.coords t) := fun h => h19 ((hcond2 t).mp h)
      rw [Dat.leavesExact_idle (dat0 V c) 6 t (idleAt0_6 t hc2) (noFlush0_6 t hc2), Dat.leavesExact_idle (dat0 V c) 7 t (idleAt0_7 t hc2) (noFlush0_7 t hc2)]
      rw [scAt_pos V c t h0]
      rw [PhiS_castSucc V c t, PhiS_pos V c _ _ h0]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run0_B c (grid0.coords t) Set.univ _ _ _ _ _ _ _ _ _ _ _ _ _ _ _ _ _ _ _ _ hc1 hc2 (B1 V c t) (B2 V c t) (B3 V c t) (B4 V c t) (B5 V c t) _ _ _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0]; · iexact HS0
          isplitl [HS1]; · iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives every scoped buffer back at some contents. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 20 := N_0; omega), PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

end Cert.KernelIdeal.Hand
end
-- ==== Proof.KI.Dat1.lean ====
import proofs.«175345_j15779709845544_1_alg».proof.Proof.KI.Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel region: blocks, proof data, body obligation (stated at the entry contents `V`)

Every point loads a block of the pre-normalisation output and the four rows (mean, reciprocal deviation, scale, shift)
and stores the normalised block whole; nothing is carried between points. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The arrays as the region finds them; after the body each input's buffer at its block and the output's at the
    normalised block; the invariant says nothing of the scoped buffers; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay1 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = k1_pay1 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d
theorem before1_4 (c : Dev nD) (t : Fin cfg1.N) (d) : (dat1 V c).before 4 t d = iblk1 V c 4 t := before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 2000000 in
/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (run1 c (grid1.coords t) Set.univ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand
end
-- ==== Proof.KI.Run.lean ====
import proofs.«175345_j15779709845544_1_alg».proof.Proof.KI.Dat0
import proofs.«175345_j15779709845544_1_alg».proof.Proof.KI.Dat1
import proofs.«175345_j15779709845544_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: host operations, the first region, host operations, the second region

The buffer contents at every segment boundary are a fold from the launch memory; each region is entered from the
contents the segment before it left and leaves its arrays at what its write-backs make of them.  The result of the
whole run: every unscoped buffer of the core ends at the last boundary's contents `W4`. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host operation and no region writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the invariant and
    comes out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the invariant and
    comes out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩) (run_all m ρ)

end Cert.KernelIdeal.Hand
end
-- ==== Proof.Spec.lean ====
/-
  The mathematics of the layer, over plain index types and extended reals: a linear map of the node features
  and of the neighbour means plus a bias, then batch normalisation over the 100000 rows (per column: subtract the
  column mean, scale by the reciprocal square root of the biased column variance plus a constant, then an affine map)
  and a clamp at zero.  Two spellings of the same function are stated: the one-pass spelling, which gathers the
  column sums of the values and of their squares tile by tile (20 tiles of 5000 rows, each tile's sum spread in
  eighths over 8 accumulator rows that are summed again at the end) and takes the variance as the mean of the
  squares minus the square of the mean; and the two-pass spelling, which takes the mean, then the mean of the
  squared deviations.  On finite inputs they agree.
-/
import Idealize.ShloMosaic.PureOps.Ideal
import Idealize.ShloMosaic.PureOps.Ideal.Laws

noncomputable section

namespace BNSpec

open Idealize.ShloMosaic

abbrev Mat := Fin 100000 → Fin 64 → EReal
abbrev Wt := Fin 64 → Fin 64 → EReal
abbrev Vc := Fin 64 → EReal

/-- The pre-normalisation output: the self term, the neighbour term, then the bias. `ws j k` is the weight from
    input feature `k` to output feature `j`. -/
def linK (h hn : Mat) (ws wn : Wt) (b : Vc) : Mat := fun r j =>
  ((∑ k : Fin 64, h r k * ws j k) + (∑ k : Fin 64, hn r k * wn j k)) + b j

/-- The same with the bias added to the self term first. -/
def linR (h hn : Mat) (ws wn : Wt) (b : Vc) : Mat := fun r j =>
  ((∑ k : Fin 64, h r k * ws j k) + b j) + (∑ k : Fin 64, hn r k * wn j k)

/-- Row `p` of tile `t`. -/
def rowOf (t : Fin 20) (p : Fin 5000) : Fin 100000 :=
  ⟨5000 * t.val + p.val, by have := t.isLt; have := p.isLt; omega⟩

/-- Column `j`'s sum over the rows of tile `t`. -/
def tileSum (Y : Mat) (t : Fin 20) (j : Fin 64) : EReal := ∑ p : Fin 5000, Y (rowOf t p) j

/-- One accumulator row after tile `n`: each tile adds its column sum times `e8`. -/
def acc (e8 : EReal) (c : Fin 20 → EReal) : (n : ℕ) → n < 20 → EReal
  | 0, h => c ⟨0, h⟩ * e8
  | n + 1, h => acc e8 c n (Nat.lt_of_succ_lt h) + c ⟨n + 1, h⟩ * e8

/-- One-pass column mean: the 8 accumulator rows summed, over the row count `n`. -/
def meanK (n e8 : EReal) (Y : Mat) (j : Fin 64) : EReal :=
  Ideal.div (∑ _r : Fin 8, acc e8 (fun t => tileSum Y t j) 19 (by norm_num)) n

/-- One-pass column mean of squares. -/
def sqK (n e8 : EReal) (Y : Mat) (j : Fin 64) : EReal :=
  Ideal.div (∑ _r : Fin 8, acc e8 (fun t => tileSum (fun r j => Y r j * Y r j) t j) 19 (by norm_num)) n

/-- One-pass variance: mean of squares minus squared mean. -/
def varK (n e8 : EReal) (Y : Mat) (j : Fin 64) : EReal := sqK n e8 Y j - meanK n e8 Y j * meanK n e8 Y j

/-- The one-pass normalised, scaled, shifted and clamped output. -/
def outK (n e8 eps : EReal) (Y : Mat) (γ β : Vc) : Mat := fun r j =>
  max ((((Y r j - meanK n e8 Y j) * Ideal.rsqrt (varK n e8 Y j + eps)) * γ j) + β j) 0

/-- Two-pass column mean. -/
def meanR (n : EReal) (Y : Mat) (j : Fin 64) : EReal := Ideal.div (∑ r : Fin 100000, Y r j) n

/-- Two-pass variance: the mean of the squared deviations. -/
def varR (n : EReal) (Y : Mat) (j : Fin 64) : EReal :=
  Ideal.div (∑ r : Fin 100000, (Y r j - meanR n Y j) * (Y r j - meanR n Y j)) n

/-- The two-pass output. -/
def outR (n eps : EReal) (Y : Mat) (γ β : Vc) : Mat := fun r j =>
  max ((((Y r j - meanR n Y j) * Ideal.rsqrt (varR n Y j + eps)) * γ j) + β j) 0

/-! ### Helper lemmas: real-valued inputs -/

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The two associations of the linear map agree: addition on the extended reals is commutative and
    associative. -/
theorem linR_eq_linK (h hn : Mat) (ws wn : Wt) (b : Vc) : linR h hn ws wn b = linK h hn ws wn b := by
  funext r j
  simp only [linR, linK]
  exact add_right_comm _ _ _

/-- On finite inputs the linear map is real-valued. -/
theorem linK_real (h hn : Mat) (ws wn : Wt) (b : Vc)
    (fh : ∀ r k, ∃ x : ℝ, h r k = (x : EReal)) (fhn : ∀ r k, ∃ x : ℝ, hn r k = (x : EReal))
    (fws : ∀ j k, ∃ x : ℝ, ws j k = (x : EReal)) (fwn : ∀ j k, ∃ x : ℝ, wn j k = (x : EReal))
    (fb : ∀ j, ∃ x : ℝ, b j = (x : EReal)) :
    ∃ y : Fin 100000 → Fin 64 → ℝ, linK h hn ws wn b = fun r j => (y r j : EReal) := by
  choose h' hh using fh
  choose hn' hhn using fhn
  choose ws' hws using fws
  choose wn' hwn using fwn
  choose b' hb using fb
  refine ⟨fun r j => ((∑ k : Fin 64, h' r k * ws' j k) + (∑ k : Fin 64, hn' r k * wn' j k)) + b' j, ?_⟩
  funext r j
  simp only [linK, hh, hhn, hws, hwn, hb, EReal.coe_add, coe_sum, EReal.coe_mul]

/-- The tiles partition the rows: summing tile by tile is summing over all rows. -/
theorem sum_tiles {M : Type*} [AddCommMonoid M] (f : Fin 100000 → M) :
    ∑ t : Fin 20, ∑ p : Fin 5000, f (rowOf t p) = ∑ r : Fin 100000, f r := by
  rw [← Fintype.sum_prod_type']
  refine Fintype.sum_bijective (fun x : Fin 20 × Fin 5000 => rowOf x.1 x.2) ?_ _ _ (fun _ => rfl)
  rw [Fintype.bijective_iff_injective_and_card]
  refine ⟨?_, by simp⟩
  rintro ⟨t, p⟩ ⟨t', p'⟩ hx
  have h1 : 5000 * t.val + p.val = 5000 * t'.val + p'.val := by
    have := congrArg Fin.val hx
    simpa [rowOf] using this
  have := p.isLt
  have := p'.isLt
  have ht : t.val = t'.val := by omega
  have hp : p.val = p'.val := by omega
  exact Prod.ext (Fin.ext ht) (Fin.ext hp)

/-- The accumulator over real tile sums after tile `n`: the partial sum of the tile sums times the factor. -/
theorem acc_coe (e : ℝ) (c : Fin 20 → ℝ) : ∀ (n : ℕ) (h : n < 20),
    acc (e : EReal) (fun t => (c t : EReal)) n h
      = (((∑ i ∈ Finset.range (n + 1), if hi : i < 20 then c ⟨i, hi⟩ else 0) * e : ℝ) : EReal)
  | 0, h => by
    simp only [acc, zero_add, Finset.range_one, Finset.sum_singleton, dif_pos h, EReal.coe_mul]
  | n + 1, h => by
    rw [acc, acc_coe e c n (Nat.lt_of_succ_lt h), Finset.sum_range_succ (n := n + 1), dif_pos h, add_mul,
      EReal.coe_add, EReal.coe_mul (c ⟨n + 1, h⟩) e]

/-- After the last tile the accumulator holds the full sum of the tile sums times the factor. -/
theorem acc_coe_last (e : ℝ) (c : Fin 20 → ℝ) (h : 19 < 20) :
    acc (e : EReal) (fun t => (c t : EReal)) 19 h = (((∑ t : Fin 20, c t) * e : ℝ) : EReal) := by
  have key : (∑ i ∈ Finset.range 20, if hi : i < 20 then c ⟨i, hi⟩ else 0) = ∑ t : Fin 20, c t := by
    rw [← Fin.sum_univ_eq_sum_range (fun i => if hi : i < 20 then c ⟨i, hi⟩ else 0) 20]
    refine Finset.sum_congr rfl (fun t _ => ?_)
    simp only [dif_pos t.isLt, Fin.eta]
  have h19 := acc_coe e c 19 h
  rw [show (19 : ℕ) + 1 = 20 from rfl, key] at h19
  exact h19

/-- The 8 accumulator rows, each holding an eighth of every tile's column sum, add up to the column sum over
    all rows. -/
theorem colsumK (f : Fin 100000 → ℝ) (h : 19 < 20) :
    ∑ _r : Fin 8, acc (((1 : ℝ) / 8 : ℝ) : EReal) (fun t => ∑ p : Fin 5000, (f (rowOf t p) : EReal)) 19 h
      = ((∑ r : Fin 100000, f r : ℝ) : EReal) := by
  have hc : (fun t : Fin 20 => ∑ p : Fin 5000, (f (rowOf t p) : EReal))
      = fun t : Fin 20 => ((∑ p : Fin 5000, f (rowOf t p) : ℝ) : EReal) := by
    funext t; rw [coe_sum]
  rw [hc]
  rw [acc_coe_last]
  rw [sum_tiles f]
  rw [← coe_sum Finset.univ (fun _ : Fin 8 => (∑ r : Fin 100000, f r) * (1 / 8))]
  have hr : ∀ S : ℝ, ∑ _r : Fin 8, S * (1 / 8) = S := by
    intro S
    rw [Finset.sum_const, Finset.card_univ, Fintype.card_fin, nsmul_eq_mul]
    push_cast; ring
  rw [hr]

/-- Over the reals the mean of the squared deviations is the mean of the squares minus the squared mean. -/
theorem var_identity (f : Fin 100000 → ℝ) :
    (∑ r, (f r - (∑ r, f r) * (1 / 100000)) * (f r - (∑ r, f r) * (1 / 100000))) * (1 / 100000)
      = (∑ r, f r * f r) * (1 / 100000) - ((∑ r, f r) * (1 / 100000)) * ((∑ r, f r) * (1 / 100000)) := by
  set S := ∑ r, f r with hS
  have h1 : ∀ r, (f r - S * (1 / 100000)) * (f r - S * (1 / 100000))
      = f r * f r - (2 * (S * (1 / 100000))) * f r + (S * (1 / 100000)) * (S * (1 / 100000)) := fun r => by ring
  rw [Finset.sum_congr rfl (fun r _ => h1 r), Finset.sum_add_distrib, Finset.sum_sub_distrib, ← Finset.mul_sum,
    Finset.sum_const, Finset.card_univ, Fintype.card_fin, ← hS, nsmul_eq_mul]
  push_cast; ring

section RealValued

variable (y : Fin 100000 → Fin 64 → ℝ)

theorem meanK_coe (j : Fin 64) :
    meanK ((100000 : ℝ) : EReal) (((1 : ℝ) / 8 : ℝ) : EReal) (fun r j => (y r j : EReal)) j
      = (((∑ r, y r j) * (1 / 100000) : ℝ) : EReal) := by
  simp only [meanK, tileSum]
  rw [colsumK (fun r => y r j), Ideal.div_coe (by norm_num), ← EReal.coe_mul]

theorem sqK_coe (j : Fin 64) :
    sqK ((100000 : ℝ) : EReal) (((1 : ℝ) / 8 : ℝ) : EReal) (fun r j => (y r j : EReal)) j
      = (((∑ r, y r j * y r j) * (1 / 100000) : ℝ) : EReal) := by
  simp only [sqK, tileSum, ← EReal.coe_mul]
  rw [colsumK (fun r => y r j * y r j), Ideal.div_coe (by norm_num), ← EReal.coe_mul]

theorem meanR_coe (j : Fin 64) :
    meanR ((100000 : ℝ) : EReal) (fun r j => (y r j : EReal)) j
      = (((∑ r, y r j) * (1 / 100000) : ℝ) : EReal) := by
  simp only [meanR]
  rw [← coe_sum, Ideal.div_coe (by norm_num), ← EReal.coe_mul]

theorem varR_coe (j : Fin 64) :
    varR ((100000 : ℝ) : EReal) (fun r j => (y r j : EReal)) j
      = varK ((100000 : ℝ) : EReal) (((1 : ℝ) / 8 : ℝ) : EReal) (fun r j => (y r j : EReal)) j := by
  simp only [varR, varK]
  rw [meanR_coe, meanK_coe, sqK_coe]
  simp only [← EReal.coe_sub, ← EReal.coe_mul, ← coe_sum]
  rw [Ideal.div_coe (by norm_num), ← EReal.coe_mul, var_identity (fun r => y r j)]

/-- On a real-valued matrix the one-pass and two-pass outputs agree. -/
theorem outK_eq_outR_coe (eps : EReal) (γ β : Vc) :
    outK ((100000 : ℝ) : EReal) (((1 : ℝ) / 8 : ℝ) : EReal) eps (fun r j => (y r j : EReal)) γ β
      = outR ((100000 : ℝ) : EReal) eps (fun r j => (y r j : EReal)) γ β := by
  funext r j
  simp only [outK, outR]
  rw [varR_coe, meanR_coe, meanK_coe]

end RealValued

/-- On finite features and weights the one-pass spelling over the kernel's association of the linear map equals
    the two-pass spelling over the other association. -/
theorem outK_linK_eq_outR_linR (h hn : Mat) (ws wn : Wt) (b γ β : Vc) (n e8 eps : EReal)
    (hn' : n = ((100000 : ℝ) : EReal)) (he8 : e8 = (((1 : ℝ) / 8 : ℝ) : EReal))
    (fh : ∀ r k, ∃ x : ℝ, h r k = (x : EReal)) (fhn : ∀ r k, ∃ x : ℝ, hn r k = (x : EReal))
    (fws : ∀ j k, ∃ x : ℝ, ws j k = (x : EReal)) (fwn : ∀ j k, ∃ x : ℝ, wn j k = (x : EReal))
    (fb : ∀ j, ∃ x : ℝ, b j = (x : EReal)) :
    outK n e8 eps (linK h hn ws wn b) γ β = outR n eps (linR h hn ws wn b) γ β := by
  obtain ⟨y, hy⟩ := linK_real h hn ws wn b fh fhn fws fwn fb
  rw [linR_eq_linK, hy, hn', he8]
  exact outK_eq_outR_coe y eps γ β

end BNSpec

end
-- ==== Proof.RefValue.lean ====
import proofs.«175345_j15779709845544_1_alg».proof.Proof.Gen.ReferenceIdeal.Run
import proofs.«175345_j15779709845544_1_alg».proof.Proof.Gen.ReferenceIdeal.Read
import proofs.«175345_j15779709845544_1_alg».proof.Proof.Spec
import Idealize.ShloMosaic.Lib.ValueIdx
import Idealize.ShloMosaic.PureOps.Ideal.Laws
noncomputable section
namespace Cert.ReferenceIdeal.RefValue
open Cert.ReferenceIdeal Cert.ReferenceIdeal.Gen Idealize.ShloMosaic Idealize.ShloMosaic.TcCoe Idealize.SL.Sem Idealize.ShloMosaic.ValueIdx

open Cert.ReferenceIdeal.Read in
/-- The pre-normalisation stage at row `r`, column `j`: the self product plus the bias plus the neighbour product. -/
theorem v26_apply (x0 : (⟨S100000x64, .f32⟩ : BufTy).Contents (Elt Ideal)) (x1 : (⟨S64x64, .f32⟩ : BufTy).Contents (Elt Ideal))
    (x2 : (⟨S64, .f32⟩ : BufTy).Contents (Elt Ideal)) (x3 : (⟨S64x64, .f32⟩ : BufTy).Contents (Elt Ideal))
    (x6 x7 : (⟨S1600000, .i32⟩ : BufTy).Contents (Elt Ideal)) (r : Fin 100000) (j : Fin 64) :
    val_main_v26 (F := Ideal) x0 x1 x2 x3 x6 x7 (ix2 r j)
      = BNSpec.linR (fun r k => x0 (ix2 r k)) (fun r k => val_main_v18 (F := Ideal) x0 x6 x7 (ix2 r k))
          (fun j k => x1 (ix2 j k)) (fun j k => x3 (ix2 j k)) (fun j => x2 (ix1 j)) r j := by
  have e1 : ∀ k : Fin 64, lidx_main_v20 (ix2 r j) k = ix2 r k := fun k =>
    funext fun a => Fin.ext (by match a with | ⟨0, _⟩ => rfl | ⟨1, _⟩ => rfl)
  have e2 : ∀ k : Fin 64, idx_main_v19 (ridx_main_v20 (ix2 r j) k) = ix2 j k := fun k =>
    funext fun a => Fin.ext (by match a with | ⟨0, _⟩ => rfl | ⟨1, _⟩ => rfl)
  have e3 : ∀ k : Fin 64, lidx_main_v25 (ix2 r j) k = ix2 r k := fun k =>
    funext fun a => Fin.ext (by match a with | ⟨0, _⟩ => rfl | ⟨1, _⟩ => rfl)
  have e4 : ∀ k : Fin 64, idx_main_v24 (ridx_main_v25 (ix2 r j) k) = ix2 j k := fun k =>
    funext fun a => Fin.ext (by match a with | ⟨0, _⟩ => rfl | ⟨1, _⟩ => rfl)
  have e5 : idx_main_v21 (idx_main_v22 (ix2 r j)) = ix1 j :=
    funext fun a => Fin.ext (by match a with | ⟨0, _⟩ => rfl)
  rw [val_main_v26_apply, val_main_v23_apply, val_main_v20_apply, val_main_v25_apply, val_main_v22_apply,
    val_main_v21_apply, e5]
  simp only [val_main_v19_apply, val_main_v24_apply, e1, e2, e3, e4, Ideal.addf_def, BNSpec.linR]

open Cert.ReferenceIdeal.Read in
/-- The column mean stage at column `j`: the column sum of the pre-normalisation stage over the row count. -/
theorem v29_apply (x0 : (⟨S100000x64, .f32⟩ : BufTy).Contents (Elt Ideal)) (x1 : (⟨S64x64, .f32⟩ : BufTy).Contents (Elt Ideal))
    (x2 : (⟨S64, .f32⟩ : BufTy).Contents (Elt Ideal)) (x3 : (⟨S64x64, .f32⟩ : BufTy).Contents (Elt Ideal))
    (x6 x7 : (⟨S1600000, .i32⟩ : BufTy).Contents (Elt Ideal)) (j : Fin 64) :
    val_main_v29 (F := Ideal) x0 x1 x2 x3 x6 x7 (ix1 j)
      = BNSpec.meanR (Ideal.ofBits .f32 0x47C35000#32) (BNSpec.linR (fun r k => x0 (ix2 r k)) (fun r k => val_main_v18 (F := Ideal) x0 x6 x7 (ix2 r k))
          (fun j k => x1 (ix2 j k)) (fun j k => x3 (ix2 j k)) (fun j => x2 (ix1 j))) j := by
  have e1 : ∀ k : Fin 100000, idx_main_v27 (ix1 j) k = ix2 k j := fun k =>
    funext fun a => Fin.ext (by match a with | ⟨0, _⟩ => rfl | ⟨1, _⟩ => rfl)
  rw [val_main_v29_apply, val_main_v27_apply, val_main_v28_apply, val_main_cst_4_apply, val_main_cst_5_apply]
  simp only [e1, v26_apply, Ideal.ofBits_def, Ideal.ofBits_zero_f32, zero_add, Ideal.hostDivf_def, BNSpec.meanR]

open Cert.ReferenceIdeal.Read in
/-- The column variance stage at column `j`: the column sum of the squared deviations over the row count. -/
theorem v36_apply (x0 : (⟨S100000x64, .f32⟩ : BufTy).Contents (Elt Ideal)) (x1 : (⟨S64x64, .f32⟩ : BufTy).Contents (Elt Ideal))
    (x2 : (⟨S64, .f32⟩ : BufTy).Contents (Elt Ideal)) (x3 : (⟨S64x64, .f32⟩ : BufTy).Contents (Elt Ideal))
    (x6 x7 : (⟨S1600000, .i32⟩ : BufTy).Contents (Elt Ideal)) (j : Fin 64) :
    val_main_v36 (F := Ideal) x0 x1 x2 x3 x6 x7 (ix1 j)
      = BNSpec.varR (Ideal.ofBits .f32 0x47C35000#32) (BNSpec.linR (fun r k => x0 (ix2 r k)) (fun r k => val_main_v18 (F := Ideal) x0 x6 x7 (ix2 r k))
          (fun j k => x1 (ix2 j k)) (fun j k => x3 (ix2 j k)) (fun j => x2 (ix1 j))) j := by
  have e1 : ∀ k : Fin 100000, idx_main_v34 (ix1 j) k = ix2 k j := fun k =>
    funext fun a => Fin.ext (by match a with | ⟨0, _⟩ => rfl | ⟨1, _⟩ => rfl)
  have e2 : ∀ k : Fin 100000, idx_main_v30 (idx_main_v31 (ix2 k j)) = ix1 j := fun k =>
    funext fun a => Fin.ext (by match a with | ⟨0, _⟩ => rfl)
  rw [val_main_v36_apply, val_main_v34_apply, val_main_v35_apply, val_main_cst_6_apply, val_main_cst_7_apply]
  simp only [e1, val_main_v33_apply, val_main_v32_apply, val_main_v31_apply, val_main_v30_apply, e2, v26_apply, v29_apply,
    Ideal.ofBits_def, Ideal.ofBits_zero_f32, zero_add, Ideal.hostDivf_def, Ideal.mulf_def, Ideal.subf_def, BNSpec.varR]

open Cert.ReferenceIdeal.Read in
/-- The last stage at row `r`, column `j`: the two-pass normalisation of the pre-normalisation stage, scaled, shifted and clamped at zero. -/
theorem v52_apply (x0 : (⟨S100000x64, .f32⟩ : BufTy).Contents (Elt Ideal)) (x1 : (⟨S64x64, .f32⟩ : BufTy).Contents (Elt Ideal))
    (x2 : (⟨S64, .f32⟩ : BufTy).Contents (Elt Ideal)) (x3 : (⟨S64x64, .f32⟩ : BufTy).Contents (Elt Ideal))
    (x4 x5 : (⟨S64, .f32⟩ : BufTy).Contents (Elt Ideal)) (x6 x7 : (⟨S1600000, .i32⟩ : BufTy).Contents (Elt Ideal)) (r : Fin 100000) (j : Fin 64) :
    val_main_v52 (F := Ideal) x0 x1 x2 x3 x4 x5 x6 x7 (ix2 r j)
      = BNSpec.outR (Ideal.ofBits .f32 0x47C35000#32) (Ideal.ofBits .f32 0x3727C5AC#32) (BNSpec.linR (fun r k => x0 (ix2 r k)) (fun r k => val_main_v18 (F := Ideal) x0 x6 x7 (ix2 r k))
          (fun j k => x1 (ix2 j k)) (fun j k => x3 (ix2 j k)) (fun j => x2 (ix1 j)))
          (fun j => x4 (ix1 j)) (fun j => x5 (ix1 j)) r j := by
  have e1 : idx_main_v37 (idx_main_v38 (ix2 r j)) = ix1 j :=
    funext fun a => Fin.ext (by match a with | ⟨0, _⟩ => rfl)
  have e2 : idx_main_v43 (idx_main_v44 (ix2 r j)) = ix1 j :=
    funext fun a => Fin.ext (by match a with | ⟨0, _⟩ => rfl)
  have e3 : idx_main_v46 (idx_main_v47 (ix2 r j)) = ix1 j :=
    funext fun a => Fin.ext (by match a with | ⟨0, _⟩ => rfl)
  have e4 : idx_main_v49 (idx_main_v50 (ix2 r j)) = ix1 j :=
    funext fun a => Fin.ext (by match a with | ⟨0, _⟩ => rfl)
  rw [val_main_v52_apply, val_main_call0_v0_apply, val_main_call0_cst_apply, val_main_v51_apply, val_main_v50_apply,
    val_main_v49_apply, e4, val_main_v48_apply, val_main_v47_apply, val_main_v46_apply, e3, val_main_v45_apply,
    val_main_v44_apply, val_main_v43_apply, e2, val_main_v42_apply, val_main_v41_apply, val_main_v40_apply,
    val_main_cst_8_apply, val_main_v39_apply, val_main_v38_apply, val_main_v37_apply, e1, v26_apply, v29_apply, v36_apply]
  simp only [Ideal.ofBits_def, Ideal.ofBits_zero_f32, Ideal.maximumf_def, Ideal.addf_def, Ideal.mulf_def, Ideal.subf_def,
    Ideal.hostUnary_rsqrt_def, BNSpec.outR]

/-- The reference's neighbour mean (its stage main_v18: gather, two scatter-adds, a clamped count, a quotient) is carried as ONE opaque function of the feature array and the two index arrays: never open it here. -/
theorem res_apply (m : (ℓ : Loc nD τ sig) → Buf (Elt Ideal) ℓ) (c : Dev nD) (r : Fin 100000) (j : Fin 64) :
    Cert.ReferenceIdeal.Value.res_main_v52 (F := Ideal) m c (ix2 r j)
      = BNSpec.outR (Ideal.ofBits .f32 0x47C35000#32) (Ideal.ofBits .f32 0x3727C5AC#32)
          (BNSpec.linR (fun r k => m ((c.tc : Thread nD τ).loc main_arg0) (ix2 r k))
            (fun r k => Cert.ReferenceIdeal.Read.val_main_v18 (F := Ideal) (m ((c.tc : Thread nD τ).loc main_arg0)) (m ((c.tc : Thread nD τ).loc main_arg6)) (m ((c.tc : Thread nD τ).loc main_arg7)) (ix2 r k))
            (fun j k => m ((c.tc : Thread nD τ).loc main_arg1) (ix2 j k))
            (fun j k => m ((c.tc : Thread nD τ).loc main_arg3) (ix2 j k))
            (fun j => m ((c.tc : Thread nD τ).loc main_arg2) (ix1 j)))
          (fun j => m ((c.tc : Thread nD τ).loc main_arg4) (ix1 j)) (fun j => m ((c.tc : Thread nD τ).loc main_arg5) (ix1 j)) r j := by
  rw [Cert.ReferenceIdeal.Read.val_main_v52_eq]
  exact v52_apply _ _ _ _ _ _ _ _ r j

end Cert.ReferenceIdeal.RefValue
end
-- ==== Proof.Finite.lean ====
import proofs.«175345_j15779709845544_1_alg».proof.Pre_finite_inputs
import proofs.«175345_j15779709845544_1_alg».proof.Proof.Gen.Pre_finite_inputs
import proofs.«175345_j15779709845544_1_alg».proof.Proof.Gen.ReferenceIdeal.Read
import Idealize.ShloMosaic.Lib.ReduceAll
import Idealize.ShloMosaic.Lib.ValueIdx

noncomputable section

namespace Cert.Finite
open Idealize.ShloMosaic

/-- every entry is a real number -/
def IsReal {s : Shape} (x : s.Idx → EReal) : Prop := ∀ i, ∃ v : ℝ, x i = (v : EReal)

/-- An extended real whose absolute value lies strictly below +∞ is a real number. -/
theorem real_of_abs_lt_top (x : EReal)
    (h : Ideal.cmp .olt (max x (-x)) (Ideal.ofBits .f32 0x7F800000#32) = 1#1) : ∃ v : ℝ, x = (v : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

instance : Subsingleton Cert.Pre_finite_inputs.S_.Idx := ⟨fun a b => funext fun d => d.elim0⟩

/-- A conjunction of two one-bit arrays that is 1 at an index has both conjuncts 1 there. -/
theorem vandi_eq_one {s : Shape} (a b : IVec s 1) (i : s.Idx) (h : andi a b i = 1#1) : a i = 1#1 ∧ b i = 1#1 :=
  IntOp.andi_eq_one.1 h

/-- If "|x| < +∞ everywhere" came out true, every entry of x is a real number. -/
theorem all_real {s : Shape} {axes : List (Fin s.rank)} (x : FVec Ideal s .f32)
    (bc : Cert.Pre_finite_inputs.S_.BroadcastsInDim s (![] : Fin 0 → Fin s.rank))
    (hr : s.ReducesTo axes Cert.Pre_finite_inputs.S_) (hS : 0 < Cert.Pre_finite_inputs.S_.numel)
    (init : IVec Cert.Pre_finite_inputs.S_ 1) (j : Cert.Pre_finite_inputs.S_.Idx)
    (h : Host.reduce IntOp.andi (cmpf .olt (Host.absf x)
      (broadcastInDim s ![] bc (constant (F := Ideal) Cert.Pre_finite_inputs.S_ .f32 0x7F800000#32))) init hr hS j = 1#1) :
    IsReal x := by
  intro i
  have hi := Host.reduce_andi_all _ _ hr hS _ h i
  exact real_of_abs_lt_top (x i) hi

/-- (1) the precondition gives: each of the six float arrays is real-valued -/
theorem of_pre [Cert.Pre_finite_inputs.Facts] (x0 : FVec Ideal Cert.Pre_finite_inputs.S100000x64 .f32) (x1 : FVec Ideal Cert.Pre_finite_inputs.S64x64 .f32) (x2 : FVec Ideal Cert.Pre_finite_inputs.S64 .f32) (x3 : FVec Ideal Cert.Pre_finite_inputs.S64x64 .f32) (x4 x5 : FVec Ideal Cert.Pre_finite_inputs.S64 .f32) (x6 x7 : IVec Cert.Pre_finite_inputs.S1600000 32)
    (h : Cert.Pre_finite_inputs.fn (F := Ideal) x0 x1 x2 x3 x4 x5 x6 x7 = fun _ => 1#1) :
    IsReal x0 ∧ IsReal x1 ∧ IsReal x2 ∧ IsReal x3 ∧ IsReal x4 ∧ IsReal x5 := by
  have h0 := congrFun h ValueIdx.ix0
  unfold Cert.Pre_finite_inputs.fn Cert.Pre_finite_inputs.fn_part1 at h0
  dsimp only at h0
  obtain ⟨h0, e5⟩ := vandi_eq_one _ _ _ h0
  obtain ⟨h0, e4⟩ := vandi_eq_one _ _ _ h0
  obtain ⟨h0, e3⟩ := vandi_eq_one _ _ _ h0
  obtain ⟨h0, e2⟩ := vandi_eq_one _ _ _ h0
  obtain ⟨e0, e1⟩ := vandi_eq_one _ _ _ h0
  exact ⟨all_real x0 _ _ _ _ _ e0, all_real x1 _ _ _ _ _ e1, all_real x2 _ _ _ _ _ e2, all_real x3 _ _ _ _ _ e3,
    all_real x4 _ _ _ _ _ e4, all_real x5 _ _ _ _ _ e5⟩

/-! ## The neighbour mean of a real-valued array is real-valued -/

/-- A finite sum of real numbers is a real number. -/
theorem real_sum {ι : Type} (t : Finset ι) (f : ι → EReal) (hf : ∀ j, ∃ v : ℝ, f j = (v : EReal)) :
    ∃ v : ℝ, ∑ j ∈ t, f j = (v : EReal) := by
  classical
  induction t using Finset.induction_on with
  | empty => exact ⟨0, by rw [Finset.sum_empty, EReal.coe_zero]⟩
  | insert a t ha ih =>
    obtain ⟨u, hu⟩ := hf a
    obtain ⟨v, hv⟩ := ih
    exact ⟨u + v, by rw [Finset.sum_insert ha, hu, hv, EReal.coe_add]⟩

/-- Accumulating real updates into a real array gives a real array, wherever the updates land. -/
theorem real_scatterAdd {s si su : Shape} (d : ScatterDims s si su) {w : Nat} (x : s.Idx → EReal) (idx : IVec si w)
    (upd : su.Idx → EReal) (hx : IsReal x) (hu : IsReal upd) : IsReal (Ideal.hostScatterAdd d x idx upd) := by
  intro i
  obtain ⟨a, ha⟩ := hx i
  obtain ⟨b, hb⟩ := real_sum (Finset.univ.filter (fun j => d.resultIdx? j idx = some i)) upd hu
  exact ⟨a + b, by unfold Ideal.hostScatterAdd; rw [ha, hb, EReal.coe_add]⟩

/-- The single-precision pattern of one denotes the real number one. -/
theorem ofBits_one_f32 : Ideal.ofBits .f32 0x3F800000#32 = ((1 : ℝ) : EReal) := by
  simp [Ideal.ofBits, Ideal.ieee, -EReal.coe_mul]; norm_num

/-- The single-precision pattern of zero denotes the real number zero. -/
theorem ofBits_zero_f32' : Ideal.ofBits .f32 0x00000000#32 = ((0 : ℝ) : EReal) := by
  rw [Ideal.ofBits_zero_f32, EReal.coe_zero]

/-- A real number divided by a real number that is at least one is a real number. -/
theorem real_div (x y : EReal) (hx : ∃ a : ℝ, x = (a : EReal)) (hy : ∃ c : ℝ, 1 ≤ c ∧ y = (c : EReal)) :
    ∃ v : ℝ, Ideal.div x y = (v : EReal) := by
  obtain ⟨a, rfl⟩ := hx
  obtain ⟨c, hc, rfl⟩ := hy
  have hc0 : c ≠ 0 := by linarith
  exact ⟨a * (1 / c), by rw [Ideal.div_coe hc0, EReal.coe_mul]⟩

open Cert.ReferenceIdeal.Read in
/-- (2) the neighbour mean of a real-valued feature array is real-valued, whatever the index arrays hold -/
theorem hn_real (x0 : (⟨Cert.ReferenceIdeal.S100000x64, .f32⟩ : BufTy).Contents (Elt Ideal)) (x6 x7 : (⟨Cert.ReferenceIdeal.S1600000, .i32⟩ : BufTy).Contents (Elt Ideal)) (h0 : IsReal x0) :
    IsReal (Cert.ReferenceIdeal.Read.val_main_v18 (F := Ideal) x0 x6 x7) := by
  -- the gathered rows are entries of the feature array
  have h6 : IsReal (val_main_v6 (F := Ideal) x0 x6) := fun j => by
    unfold val_main_v6 Host.gather
    exact h0 _
  -- the zero array the sums start from
  have h7 : IsReal (val_main_v7 (F := Ideal)) := fun i =>
    ⟨0, by rw [val_main_v7_apply, val_main_cst_apply, Ideal.ofBits_def, ofBits_zero_f32']⟩
  -- the neighbour sums
  have h9 : IsReal (val_main_v9 (F := Ideal) x0 x6 x7) := by
    unfold val_main_v9 Host.scatterAdd
    rw [Ideal.hostScatterAdd_def]
    exact real_scatterAdd _ _ _ _ h7 h6
  -- the array of ones that is counted
  have h10 : IsReal (val_main_v10 (F := Ideal)) := fun i =>
    ⟨1, by rw [val_main_v10_apply, val_main_cst_1_apply, Ideal.ofBits_def, ofBits_one_f32]⟩
  have h11 : IsReal (val_main_v11 (F := Ideal)) := fun i =>
    ⟨0, by rw [val_main_v11_apply, val_main_cst_2_apply, Ideal.ofBits_def, ofBits_zero_f32']⟩
  -- the neighbour counts
  have h13 : IsReal (val_main_v13 (F := Ideal) x7) := by
    unfold val_main_v13 Host.scatterAdd
    rw [Ideal.hostScatterAdd_def]
    exact real_scatterAdd _ _ _ _ h11 h10
  -- the divisor max(count, 1) is a real number that is at least one
  have h15 : ∀ i, ∃ c : ℝ, 1 ≤ c ∧ val_main_v15 (F := Ideal) x7 i = (c : EReal) := fun i => by
    obtain ⟨c, hc⟩ := h13 i
    refine ⟨max c 1, le_max_right _ _, ?_⟩
    rw [val_main_v15_apply, Ideal.maximumf_def, hc, val_main_v14_apply, val_main_cst_3_apply, Ideal.ofBits_def,
      ofBits_one_f32]
    exact (EReal.coe_strictMono.monotone.map_max).symm
  intro i
  rw [val_main_v18_apply, Ideal.hostDivf_def, val_main_v17_apply, val_main_v16_apply]
  exact real_div _ _ (h9 i) (h15 _)

end Cert.Finite

end
-- ==== Proof.Payload.lean ====
import proofs.«175345_j15779709845544_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-!
The arithmetic of the two kernel bodies read at one index, at the ideal values: floats are extended
reals, every operation is exact and a change of format is the identity.

* The first body's stored block y is, at row p and column q,
  (∑ k, xh[p,k] · wsT[k,q] + ∑ k, xn[p,k] · wnT[k,q]) + b[0,q].
* Its two running statistics add, on each of their eight rows, one eighth of the block's column sum
  of y and of y² to what the row held.
* The statistics start from zero.
* The second body's stored block is max (((x − μ) · σ) · γ + β) 0, the four row vectors read at
  the column.
* The two float constants the programs spell: one eighth and one hundred thousand.
-/

noncomputable section
namespace Cert.KernelIdeal.Pay
open Cert.KernelIdeal Cert.KernelIdeal.Gen Idealize.ShloMosaic Idealize.ShloMosaic.ValueIdx

/-! ## The constants -/

/-- The word 0x3E000000 denotes one eighth. -/
theorem eighth : Ideal.ofBits .f32 0x3E000000#32 = (((1 : ℝ) / 8 : ℝ) : EReal) := by
  simp [Ideal.ofBits, Ideal.ieee, -EReal.coe_mul]; norm_num

/-- The word 0x47C35000 denotes one hundred thousand. -/
theorem n_rows : Ideal.ofBits .f32 0x47C35000#32 = ((100000 : ℝ) : EReal) := by
  simp [Ideal.ofBits, Ideal.ieee, -EReal.coe_mul]; norm_num

/-! ## The product of a row block with a transposed weight block -/

/-- The left operand's row coordinate is the output's. -/
theorem lhs_dot_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- The left operand's column coordinate is the contraction's. -/
theorem lhs_dot_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand's row coordinate is the contraction's. -/
theorem rhs_dot_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- The right operand's column coordinate is the output's. -/
theorem rhs_dot_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A [5000,64] × [64,64] product into the zero block, at (p, q): the sum over k of the
    left operand at (p, k) times the right operand at (k, q). -/
theorem matmul_zero_apply {φ₁ φ₂ : FTy} (x : FVec Ideal S5000x64 φ₁) (w : FVec Ideal S64x64 φ₂) (p : Fin 5000) (q : Fin 64) :
    matmul dot_S5000x64_S64x64_S5000x64_1_0_0_1_n_n none x w (constant (F := Ideal) S5000x64 .f32 0x00000000#32) (ix2 p q)
      = ∑ k : Fin 64, x (ix2 p k) * w (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_dot_0 _ _
    | ⟨1, _⟩ => exact (lhs_dot_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_dot_0 _ _).trans hk
    | ⟨1, _⟩ => exact rhs_dot_1 _ _)
  rw [el, er]

/-! ## The column sum of a block -/

/-- Over column q, the block index with row k inserted is (k, q). -/
theorem lift_col (q : Fin 64) (k : Fin 5000) : reduces_S5000x64_S64.lift (ix1 q) k = ix2 k q := by
  funext a
  apply Fin.ext
  match a with
  | ⟨0, _⟩ => rfl
  | ⟨1, _⟩ => rfl

/-- The sum of a [5000,64] block over its rows, at column q. -/
theorem colsum_apply (v : FVec Ideal S5000x64 .f32) (hφ : FKind.Formats .f32)
    (hacc : (0x00000000#32 : BitVec 32) = 0x00000000#32) (q : Fin 64) :
    multiReduction (F := Ideal) .add [0] S64 v 0x00000000#32 reduces_S5000x64_S64 hφ hacc (ix1 q)
      = ∑ p : Fin 5000, v (ix2 p q) := by
  refine (Ideal.multiReduction_add_single v 0x00000000#32 reduces_S5000x64_S64 hφ hacc (ix1 q)).trans ?_
  exact Finset.sum_congr rfl fun k _ => congrArg v (lift_col q k)

/-! ## The first body -/

/-- The stored block at (p, q). -/
theorem pay5_apply (xh xn : Vec Ideal S5000x64 .f32) (wsT wnT : Vec Ideal S64x64 .f32) (bb : Vec Ideal S1x64 .f32) (p : Fin 5000) (q : Fin 64) :
    k0_pay5 (F := Ideal) xh xn wsT wnT bb (ix2 p q) = ((∑ k : Fin 64, xh (ix2 p k) * wsT (ix2 k q)) + (∑ k : Fin 64, xn (ix2 p k) * wnT (ix2 k q))) + bb (ix2 0 q) := by
  unfold k0_pay5
  rw [addf_apply, addf_apply, matmul_zero_apply, matmul_zero_apply]
  simp only [shapeCast_self, truncf_apply]
  rw [broadcastTo_1b_ab_apply]

/-- The first statistic starts from zero. -/
theorem pay3_apply (a : Fin 8) (q : Fin 64) : k0_pay3 (F := Ideal) (ix2 a q) = 0 := by
  unfold k0_pay3
  simp only [shapeCast_self]
  rw [broadcast_apply]
  exact Ideal.ofBits_zero_f32

/-- The second statistic starts from zero. -/
theorem pay4_apply (a : Fin 8) (q : Fin 64) : k0_pay4 (F := Ideal) (ix2 a q) = 0 := by
  unfold k0_pay4
  simp only [shapeCast_self]
  rw [broadcast_apply]
  exact Ideal.ofBits_zero_f32

/-- The first statistic's step, at (a, q): one eighth of the stored block's column sum is added to
    what the row held. -/
theorem stepS_apply (xh xn : Vec Ideal S5000x64 .f32) (wsT wnT : Vec Ideal S64x64 .f32) (bb : Vec Ideal S1x64 .f32) (s : Vec Ideal S8x64 .f32) (a : Fin 8) (q : Fin 64) :
    k0_pay1 (F := Ideal) (k0_pay7 xh xn wsT wnT bb s) (ix2 a q) = s (ix2 a q) + (∑ p : Fin 5000, k0_pay5 (F := Ideal) xh xn wsT wnT bb (ix2 p q)) * Ideal.ofBits .f32 0x3E000000#32 := by
  unfold k0_pay1 k0_pay7
  simp only [shapeCast_self]
  rw [addf_apply, broadcastTo_1b_ab_apply, mulf_apply, broadcast_apply, shapeCast_a_1a_apply, colsum_apply]
  rfl

/-- The second statistic's step, at (a, q): one eighth of the column sum of the stored block's
    squares is added to what the row held. -/
theorem stepQ_apply (xh xn : Vec Ideal S5000x64 .f32) (wsT wnT : Vec Ideal S64x64 .f32) (bb : Vec Ideal S1x64 .f32) (s : Vec Ideal S8x64 .f32) (a : Fin 8) (q : Fin 64) :
    k0_pay2 (F := Ideal) (k0_pay6 xh xn wsT wnT bb) s (ix2 a q) = s (ix2 a q) + (∑ p : Fin 5000, k0_pay5 (F := Ideal) xh xn wsT wnT bb (ix2 p q) * k0_pay5 (F := Ideal) xh xn wsT wnT bb (ix2 p q)) * Ideal.ofBits .f32 0x3E000000#32 := by
  unfold k0_pay2 k0_pay6
  simp only [shapeCast_self]
  rw [addf_apply, broadcastTo_1b_ab_apply, mulf_apply, broadcast_apply, shapeCast_a_1a_apply, colsum_apply]
  rfl

/-! ## The second body -/

/-- The stored block at (p, q). -/
theorem k1_apply (x : Vec Ideal S5000x64 .f32) (mu sg ga be : Vec Ideal S1x64 .f32) (p : Fin 5000) (q : Fin 64) :
    k1_pay1 (F := Ideal) x mu sg ga be (ix2 p q) = max ((((x (ix2 p q) - mu (ix2 0 q)) * sg (ix2 0 q)) * ga (ix2 0 q)) + be (ix2 0 q)) 0 := by
  unfold k1_pay1
  simp only [shapeCast_self]
  rw [maximumf_apply, addf_apply, mulf_apply, mulf_apply, subf_apply, broadcast_apply]
  simp only [broadcastTo_1b_ab_apply]
  rw [show (Scalar.ofBits .f32 0x00000000#32 : Ideal .f32) = 0 from Ideal.ofBits_zero_f32]

end Cert.KernelIdeal.Pay
end
-- ==== Proof.KValHost.lean ====
/-
  The first host stretch of the kernel program read back at the ideal instance: the neighbour mean it computes is the
  reference's (the same gather, scatter-adds, clamped count and quotient of the same arguments), the two weight
  matrices arrive transposed, the bias as a one-row matrix, and the node features untouched.
-/
import proofs.«175345_j15779709845544_1_alg».proof.Proof.KI.Run
import proofs.«175345_j15779709845544_1_alg».proof.Proof.Gen.ReferenceIdeal.Read
import Idealize.ShloMosaic.Lib.StableHlo.Run
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

set_option maxHeartbeats 4000000 in
/-- The neighbour mean the first region is entered with is the reference's stage of the same three arguments. -/
theorem v18_eq (c : Dev nD) :
    V1 m ρ c main_v18 = Cert.ReferenceIdeal.Read.val_main_v18 (F := Ideal) (m ((c.tc : Thread nD τ).loc main_arg0)) (m ((c.tc : Thread nD τ).loc main_arg6)) (m ((c.tc : Thread nD τ).loc main_arg7)) := by
  show StableHlo.after hostOps0 (fun b => m (c, b)) (Proc.devRef .tc main_v18) = _
  after_results
  rfl

set_option maxHeartbeats 4000000 in
/-- The self weights arrive transposed. -/
theorem v19_apply (c : Dev nD) (k j : Fin 64) : V1 m ρ c main_v19 (ix2 k j) = m ((c.tc : Thread nD τ).loc main_arg1) (ix2 j k) := by
  have e : V1 m ρ c main_v19 = Cert.ReferenceIdeal.Read.val_main_v19 (F := Ideal) (m ((c.tc : Thread nD τ).loc main_arg1)) := by
    show StableHlo.after hostOps0 (fun b => m (c, b)) (Proc.devRef .tc main_v19) = _
    after_results
    rfl
  rw [e, Cert.ReferenceIdeal.Read.val_main_v19_apply]
  exact congrArg _ (funext fun a => Fin.ext (by match a with | ⟨0, _⟩ => rfl | ⟨1, _⟩ => rfl))

set_option maxHeartbeats 4000000 in
/-- The neighbour weights arrive transposed. -/
theorem v20_apply (c : Dev nD) (k j : Fin 64) : V1 m ρ c main_v20 (ix2 k j) = m ((c.tc : Thread nD τ).loc main_arg3) (ix2 j k) := by
  have e : V1 m ρ c main_v20 = Cert.ReferenceIdeal.Read.val_main_v24 (F := Ideal) (m ((c.tc : Thread nD τ).loc main_arg3)) := by
    show StableHlo.after hostOps0 (fun b => m (c, b)) (Proc.devRef .tc main_v20) = _
    after_results
    rfl
  rw [e, Cert.ReferenceIdeal.Read.val_main_v24_apply]
  exact congrArg _ (funext fun a => Fin.ext (by match a with | ⟨0, _⟩ => rfl | ⟨1, _⟩ => rfl))

set_option maxHeartbeats 4000000 in
/-- The bias arrives as a one-row matrix. -/
theorem v21_apply (c : Dev nD) (j : Fin 64) : V1 m ρ c main_v21 (ix2 0 j) = m ((c.tc : Thread nD τ).loc main_arg2) (ix1 j) := by
  have e : V1 m ρ c main_v21 = shapeCast S1x64 (m ((c.tc : Thread nD τ).loc main_arg2)) Cert.KernelIdeal.Gen.shapeCasts_S64_S1x64 := by
    show StableHlo.after hostOps0 (fun b => m (c, b)) (Proc.devRef .tc main_v21) = _
    after_results
    rfl
  rw [e]
  exact shapeCast_apply _ _ _ (ix1 j) (by simp [Shape.rowMajor_val_one, Shape.rowMajor_val_two])

/-- The node features are as launched. -/
theorem arg0_eq (c : Dev nD) : V1 m ρ c main_arg0 = m ((c.tc : Thread nD τ).loc main_arg0) :=
  StableHlo.after_of_writes_sub hostOps0 _ hostOps0_writes (by decide)

end Cert.KernelIdeal.Val

end
-- ==== Proof.KVal0.lean ====
import proofs.«175345_j15779709845544_1_alg».proof.Proof.KI.Dat0
import proofs.«175345_j15779709845544_1_alg».proof.Proof.Payload
import proofs.«175345_j15779709845544_1_alg».proof.Proof.Spec
import Idealize.ShloMosaic.Lib.Pipeline.Value
import Idealize.ShloMosaic.Lib.ValueIdx
set_option maxRecDepth 16384
noncomputable section
namespace Cert.KernelIdeal.Val
open Cert.KernelIdeal Cert.KernelIdeal.Gen Cert.KernelIdeal.Hand Idealize.ShloMosaic Idealize.ShloMosaic.TcCoe Idealize.SL.Sem Idealize.ShloMosaic.ValueIdx
open Idealize.ShloMosaic.Pipeline (Dat)
variable (V : (c : Dev nD) → (b : Ref sig .tc) → Buf (Elt Ideal) ((c : Thread nD τ).loc b))

/-- The pre-normalisation output as a function of the region's entry arrays: window 0 stages main_arg0 (node features), window 1 main_v18 (neighbour means), window 2 main_v19 and window 4 main_v20 (the TRANSPOSED weights: entry (k,j)), window 3 main_v21 (the bias as a [1,64] row). -/
def Yof (c : Dev nD) : BNSpec.Mat :=
  BNSpec.linK (fun r k => V c main_arg0 (ix2 r k)) (fun r k => V c main_v18 (ix2 r k)) (fun j k => V c main_v19 (ix2 k j)) (fun j k => V c main_v20 (ix2 k j)) (fun j => V c main_v21 (ix2 0 j))

/-! ## Where the blocks sit

The row windows (node features, neighbour means, the output) have block index (t, 0) at point t; the weights, the bias
and the two summary outputs are whole arrays at block index (0, 0). -/

theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_5.index t (0 : Fin 2) = t.val ∧ win0_5.index t (1 : Fin 2) = 0 :=
  (by decide +kernel : ∀ t : Fin grid0.N, _)

theorem idx_whole : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Row p of the node-feature block at point t is row 5000 t + p of the array. -/
theorem B1_apply (c : Dev nD) (t : Fin cfg0.N) (p : Fin 5000) (k : Fin 64) (r : Fin 100000) (hr : r.val = 5000 * t.val + p.val) :
    B1 V c t (ix2 p k) = V c main_arg0 (ix2 r k) := by
  show V c main_arg0 (((cfg0.win 0).blk t).view.emb (ix2 p k)) = _
  refine congrArg (V c main_arg0) ?_
  obtain ⟨e0, e1, -⟩ := idx_rows t
  funext a; apply Fin.ext
  match a with
  | ⟨0, _⟩ => show win0_0.index t (0 : Fin 2) * 5000 + 1 * p.val = r.val; omega
  | ⟨1, _⟩ => show win0_0.index t (1 : Fin 2) * 64 + 1 * k.val = k.val; omega

/-- Row p of the neighbour-mean block at point t is row 5000 t + p of the array. -/
theorem B2_apply (c : Dev nD) (t : Fin cfg0.N) (p : Fin 5000) (k : Fin 64) (r : Fin 100000) (hr : r.val = 5000 * t.val + p.val) :
    B2 V c t (ix2 p k) = V c main_v18 (ix2 r k) := by
  show V c main_v18 (((cfg0.win 1).blk t).view.emb (ix2 p k)) = _
  refine congrArg (V c main_v18) ?_
  obtain ⟨-, -, e0, e1, -⟩ := idx_rows t
  funext a; apply Fin.ext
  match a with
  | ⟨0, _⟩ => show win0_1.index t (0 : Fin 2) * 5000 + 1 * p.val = r.val; omega
  | ⟨1, _⟩ => show win0_1.index t (1 : Fin 2) * 64 + 1 * k.val = k.val; omega

/-- The self-weight block is the whole transposed weight array. -/
theorem B3_apply (c : Dev nD) (t : Fin cfg0.N) (k q : Fin 64) : B3 V c t (ix2 k q) = V c main_v19 (ix2 k q) := by
  show V c main_v19 (((cfg0.win 2).blk t).view.emb (ix2 k q)) = _
  refine congrArg (V c main_v19) ?_
  obtain ⟨e0, e1, -⟩ := idx_whole t
  funext a; apply Fin.ext
  match a with
  | ⟨0, _⟩ => show win0_2.index t (0 : Fin 2) * 64 + 1 * k.val = k.val; omega
  | ⟨1, _⟩ => show win0_2.index t (1 : Fin 2) * 64 + 1 * q.val = q.val; omega

/-- The bias block is the whole bias row. -/
theorem B4_apply (c : Dev nD) (t : Fin cfg0.N) (z : Fin 1) (q : Fin 64) : B4 V c t (ix2 z q) = V c main_v21 (ix2 z q) := by
  show V c main_v21 (((cfg0.win 3).blk t).view.emb (ix2 z q)) = _
  refine congrArg (V c main_v21) ?_
  obtain ⟨-, -, e0, e1, -⟩ := idx_whole t
  funext a; apply Fin.ext
  match a with
  | ⟨0, _⟩ => show win0_3.index t (0 : Fin 2) * 1 + 1 * z.val = z.val; omega
  | ⟨1, _⟩ => show win0_3.index t (1 : Fin 2) * 64 + 1 * q.val = q.val; omega

/-- The neighbour-weight block is the whole transposed weight array. -/
theorem B5_apply (c : Dev nD) (t : Fin cfg0.N) (k q : Fin 64) : B5 V c t (ix2 k q) = V c main_v20 (ix2 k q) := by
  show V c main_v20 (((cfg0.win 4).blk t).view.emb (ix2 k q)) = _
  refine congrArg (V c main_v20) ?_
  obtain ⟨-, -, -, -, e0, e1, -⟩ := idx_whole t
  funext a; apply Fin.ext
  match a with
  | ⟨0, _⟩ => show win0_4.index t (0 : Fin 2) * 64 + 1 * k.val = k.val; omega
  | ⟨1, _⟩ => show win0_4.index t (1 : Fin 2) * 64 + 1 * q.val = q.val; omega

/-! ## The tile's output block is the tile of the linear map -/

/-- Over any five blocks whose entries are those of the five arrays at row r and column q: the stored block at (p, q)
    is the linear map at (r, q). -/
theorem outB_apply (x1 x2 : Vec Ideal S5000x64 .f32) (x3 : Vec Ideal S64x64 .f32) (x4 : Vec Ideal S1x64 .f32) (x5 : Vec Ideal S64x64 .f32)
    (h hn : BNSpec.Mat) (ws wn : BNSpec.Wt) (b : BNSpec.Vc) (p : Fin 5000) (q : Fin 64) (r : Fin 100000)
    (h1 : ∀ k, x1 (ix2 p k) = h r k) (h2 : ∀ k, x2 (ix2 p k) = hn r k) (h3 : ∀ k, x3 (ix2 k q) = ws q k)
    (h5 : ∀ k, x5 (ix2 k q) = wn q k) (h4 : x4 (ix2 0 q) = b q) :
    outB x1 x2 x3 x4 x5 (ix2 p q) = BNSpec.linK h hn ws wn b r q := by
  unfold outB
  rw [Pay.pay5_apply, h4]
  show _ = ((∑ k : Fin 64, h r k * ws q k) + (∑ k : Fin 64, hn r k * wn q k)) + b q
  refine congrArg₂ (· + ·) (congrArg₂ (· + ·) (Finset.sum_congr rfl fun k _ => ?_) (Finset.sum_congr rfl fun k _ => ?_)) rfl
  · rw [h1 k, h3 k]
  · rw [h2 k, h5 k]

/-- The output block at point t, at (p, q), is the linear map at row 5000 t + p, column q. -/
theorem tile_apply (c : Dev nD) (t : Fin cfg0.N) (p : Fin 5000) (q : Fin 64) (r : Fin 100000) (hr : r.val = 5000 * t.val + p.val) :
    outB (B1 V c t) (B2 V c t) (B3 V c t) (B4 V c t) (B5 V c t) (ix2 p q) = Yof V c r q :=
  outB_apply (B1 V c t) (B2 V c t) (B3 V c t) (B4 V c t) (B5 V c t) _ _ _ _ _ p q r
    (fun k => B1_apply V c t p k r hr) (fun k => B2_apply V c t p k r hr) (fun k => B3_apply V c t k q)
    (fun k => B5_apply V c t k q) (B4_apply V c t 0 q)

/-! ## The output array -/

/-- Two functions of a rank-2 index agree when they agree at every pair of coordinates. -/
theorem fun_eq_of_ix2 {n0 n1 : Nat} {α : Type} (f g : (⟨2, ![n0, n1]⟩ : Shape).Idx → α)
    (h : ∀ (p : Fin n0) (q : Fin n1), f (ix2 p q) = g (ix2 p q)) : f = g :=
  funext fun y => by rw [eq_ix2 y]; exact h _ _

/-- The linear map as an array: entry (r, j) at index (r, j). -/
def G5 (c : Dev nD) : S100000x64.Idx → Elt Ideal .f32 := fun i => Yof V c (i 0) (i 1)

/-- Entry (p, q) of the output block at point t sits at (5000 t + p, q) of the array. -/
theorem emb5 (t : Fin cfg0.N) (p : Fin 5000) (q : Fin 64) (r : Fin 100000) (hr : r.val = 5000 * t.val + p.val) :
    ((cfg0.win 5).blk t).view.emb (ix2 p q) = (ix2 r q : S100000x64.Idx) := by
  obtain ⟨-, -, -, -, e0, e1⟩ := idx_rows t
  funext a; apply Fin.ext
  match a with
  | ⟨0, _⟩ => show win0_5.index t (0 : Fin 2) * 5000 + 1 * p.val = r.val; omega
  | ⟨1, _⟩ => show win0_5.index t (1 : Fin 2) * 64 + 1 * q.val = q.val; omega

/-- What point t writes back is block t of the linear map. -/
theorem flushed5_eq (c : Dev nD) (t : Fin cfg0.N) :
    (dat0 V c).flushed 5 t = ((cfg0.win 5).blk t).view.read (Elt Ideal) (G5 V c) := by
  show (cfg0.win 5).cut (cfg0.grid.coords t) ((dat0 V c).after 5 t) = _
  rw [after0_5]
  refine fun_eq_of_ix2 (n0 := 5000) (n1 := 64) _ _ fun p q => ?_
  have hN : t.val < 20 := lt_of_lt_of_eq t.isLt N_0
  show outB (B1 V c t) (B2 V c t) (B3 V c t) (B4 V c t) (B5 V c t) (ix2 p q) = G5 V c (((cfg0.win 5).blk t).view.emb (ix2 p q))
  rw [emb5 t p q ⟨5000 * t.val + p.val, by omega⟩ rfl]
  exact tile_apply V c t p q _ rfl

/-- An index of the output array is in point t's block iff each coordinate is in the block's range on its axis. -/
theorem mem_blk5 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v22_0).slice (win0_5.rect t)).set ↔ _
  rw [View.set_slice_whole, Rect.mem_set_unit]
  exact Iff.rfl

/-- Row r of the output array is in the block of point r / 5000. -/
theorem cover5 (i : S100000x64.Idx) : ∃ t : Fin cfg0.N, (cfg0.win 5).flush t = true ∧ i ∈ ((cfg0.win 5).blk t).view.set := by
  have hi0 : (i 0).val < 100000 := idx2_lt0 i
  have hi1 : (i 1).val < 64 := idx2_lt1 i
  refine ⟨⟨(i 0).val / 5000, by rw [show cfg0.N = 20 from N_0]; omega⟩, flush0_5 _, ?_⟩
  rw [mem_blk5]
  obtain ⟨-, -, -, -, e0, e1⟩ := idx_rows ⟨(i 0).val / 5000, by rw [show cfg0.N = 20 from N_0]; omega⟩
  intro a
  match a with
  | ⟨0, _⟩ =>
    show win0_5.index _ (0 : Fin 2) * 5000 ≤ (i 0).val ∧ (i 0).val < win0_5.index _ (0 : Fin 2) * 5000 + 5000
    rw [e0]; show (i 0).val / 5000 * 5000 ≤ (i 0).val ∧ (i 0).val < (i 0).val / 5000 * 5000 + 5000; omega
  | ⟨1, _⟩ =>
    show win0_5.index _ (1 : Fin 2) * 64 ≤ (i 1).val ∧ (i 1).val < win0_5.index _ (1 : Fin 2) * 64 + 64
    rw [e1]; omega

/-- The first output array after the region is the linear map. -/
theorem arr5_fun (c : Dev nD) : (dat0 V c).arrAt 5 cfg0.N = G5 V c :=
  (dat0 V c).arrAt_eq_of_cover 5 (G5 V c) (fun t _ => flushed5_eq V c t) cover5

theorem arr5 (c : Dev nD) (r : Fin 100000) (j : Fin 64) : (dat0 V c).arrAt 5 cfg0.N (ix2 r j) = Yof V c r j :=
  congrFun (arr5_fun V c) (ix2 r j)

/-! ## The two accumulators, point by point -/

/-- Over any five blocks whose stored block in column q is tile t of Y: the sums accumulator's step adds an eighth of the
    tile's column sum. -/
theorem stepS_tile (x1 x2 : Vec Ideal S5000x64 .f32) (x3 : Vec Ideal S64x64 .f32) (x4 : Vec Ideal S1x64 .f32) (x5 : Vec Ideal S64x64 .f32)
    (s : Vec Ideal S8x64 .f32) (Y : BNSpec.Mat) (t : Fin 20) (a : Fin 8) (q : Fin 64)
    (hY : ∀ p : Fin 5000, outB x1 x2 x3 x4 x5 (ix2 p q) = Y (BNSpec.rowOf t p) q) :
    stepS x1 x2 x3 x4 x5 s (ix2 a q) = s (ix2 a q) + BNSpec.tileSum Y t q * Ideal.ofBits .f32 0x3E000000#32 := by
  unfold stepS
  rw [Pay.stepS_apply]
  unfold BNSpec.tileSum
  exact congrArg (fun z => s (ix2 a q) + z * Ideal.ofBits .f32 0x3E000000#32) (Finset.sum_congr rfl fun p _ => hY p)

/-- The squares accumulator's step adds an eighth of the column sum of the tile's squares. -/
theorem stepQ_tile (x1 x2 : Vec Ideal S5000x64 .f32) (x3 : Vec Ideal S64x64 .f32) (x4 : Vec Ideal S1x64 .f32) (x5 : Vec Ideal S64x64 .f32)
    (s : Vec Ideal S8x64 .f32) (Y : BNSpec.Mat) (t : Fin 20) (a : Fin 8) (q : Fin 64)
    (hY : ∀ p : Fin 5000, outB x1 x2 x3 x4 x5 (ix2 p q) = Y (BNSpec.rowOf t p) q) :
    stepQ x1 x2 x3 x4 x5 s (ix2 a q) = s (ix2 a q) + BNSpec.tileSum (fun r j => Y r j * Y r j) t q * Ideal.ofBits .f32 0x3E000000#32 := by
  unfold stepQ
  rw [Pay.stepQ_apply]
  unfold BNSpec.tileSum
  exact congrArg (fun z => s (ix2 a q) + z * Ideal.ofBits .f32 0x3E000000#32)
    (Finset.sum_congr rfl fun p _ => congrArg₂ (· * ·) (hY p) (hY p))

/-- After point n every row of the two accumulators holds the specification's accumulator after tile n, of the linear
    map's column sums and of its squares' column sums. -/
theorem sc_apply (c : Dev nD) : ∀ (n : ℕ) (hn : n < cfg0.N) (hn' : n < 20) (a : Fin 8) (q : Fin 64),
    (scAt V c n hn).1 (ix2 a q) = BNSpec.acc (Ideal.ofBits .f32 0x3E000000#32) (fun t => BNSpec.tileSum (Yof V c) t q) n hn'
    ∧ (scAt V c n hn).2 (ix2 a q) = BNSpec.acc (Ideal.ofBits .f32 0x3E000000#32) (fun t => BNSpec.tileSum (fun r j => Yof V c r j * Yof V c r j) t q) n hn'
  | 0, hn, hn', a, q => by
    constructor
    · show stepS (B1 V c ⟨0, hn⟩) (B2 V c ⟨0, hn⟩) (B3 V c ⟨0, hn⟩) (B4 V c ⟨0, hn⟩) (B5 V c ⟨0, hn⟩) (k0_pay3 (F := Ideal)) (ix2 a q) = _
      refine (stepS_tile _ _ _ _ _ _ (Yof V c) ⟨0, hn'⟩ a q (fun p => tile_apply V c ⟨0, hn⟩ p q _ rfl)).trans ?_
      rw [Pay.pay3_apply, zero_add]
      rfl
    · show stepQ (B1 V c ⟨0, hn⟩) (B2 V c ⟨0, hn⟩) (B3 V c ⟨0, hn⟩) (B4 V c ⟨0, hn⟩) (B5 V c ⟨0, hn⟩) (k0_pay4 (F := Ideal)) (ix2 a q) = _
      refine (stepQ_tile _ _ _ _ _ _ (Yof V c) ⟨0, hn'⟩ a q (fun p => tile_apply V c ⟨0, hn⟩ p q _ rfl)).trans ?_
      rw [Pay.pay4_apply, zero_add]
      rfl
  | n + 1, hn, hn', a, q => by
    obtain ⟨ih1, ih2⟩ := sc_apply c n (Nat.lt_of_succ_lt hn) (Nat.lt_of_succ_lt hn') a q
    constructor
    · show stepS (B1 V c ⟨n + 1, hn⟩) (B2 V c ⟨n + 1, hn⟩) (B3 V c ⟨n + 1, hn⟩) (B4 V c ⟨n + 1, hn⟩) (B5 V c ⟨n + 1, hn⟩) (scAt V c n (Nat.lt_of_succ_lt hn)).1 (ix2 a q) = _
      refine (stepS_tile _ _ _ _ _ _ (Yof V c) ⟨n + 1, hn'⟩ a q (fun p => tile_apply V c ⟨n + 1, hn⟩ p q _ rfl)).trans ?_
      rw [ih1]
      rfl
    · show stepQ (B1 V c ⟨n + 1, hn⟩) (B2 V c ⟨n + 1, hn⟩) (B3 V c ⟨n + 1, hn⟩) (B4 V c ⟨n + 1, hn⟩) (B5 V c ⟨n + 1, hn⟩) (scAt V c n (Nat.lt_of_succ_lt hn)).2 (ix2 a q) = _
      refine (stepQ_tile _ _ _ _ _ _ (Yof V c) ⟨n + 1, hn'⟩ a q (fun p => tile_apply V c ⟨n + 1, hn⟩ p q _ rfl)).trans ?_
      rw [ih2]
      rfl

/-! ## The two summary arrays: written once, at the last point, whole -/

theorem last_of_flush6 (t : Fin cfg0.N) (hf : (cfg0.win 6).flush t = true) : t.val = 19 := by
  have h1 := (flush0_6 t).mp hf
  have h2 : t.val < 20 := lt_of_lt_of_eq t.isLt N_0
  omega

theorem last_of_flush7 (t : Fin cfg0.N) (hf : (cfg0.win 7).flush t = true) : t.val = 19 := by
  have h1 := (flush0_7 t).mp hf
  have h2 : t.val < 20 := lt_of_lt_of_eq t.isLt N_0
  omega

theorem last_lt : 19 < cfg0.N := by rw [show cfg0.N = 20 from N_0]; norm_num

/-- Entry (a, q) of a summary block sits at (a, q) of its array. -/
theorem emb6 (t : Fin cfg0.N) (a : Fin 8) (q : Fin 64) : ((cfg0.win 6).blk t).view.emb (ix2 a q) = (ix2 a q : S8x64.Idx) := by
  obtain ⟨-, -, -, -, -, -, e0, e1, -⟩ := idx_whole t
  funext d; apply Fin.ext
  match d with
  | ⟨0, _⟩ => show win0_6.index t (0 : Fin 2) * 8 + 1 * a.val = a.val; omega
  | ⟨1, _⟩ => show win0_6.index t (1 : Fin 2) * 64 + 1 * q.val = q.val; omega

theorem emb7 (t : Fin cfg0.N) (a : Fin 8) (q : Fin 64) : ((cfg0.win 7).blk t).view.emb (ix2 a q) = (ix2 a q : S8x64.Idx) := by
  obtain ⟨-, -, -, -, -, -, -, -, e0, e1⟩ := idx_whole t
  funext d; apply Fin.ext
  match d with
  | ⟨0, _⟩ => show win0_7.index t (0 : Fin 2) * 8 + 1 * a.val = a.val; omega
  | ⟨1, _⟩ => show win0_7.index t (1 : Fin 2) * 64 + 1 * q.val = q.val; omega

/-- The one write-back of the sums: the accumulator after the last point. -/
theorem flushed6_eq (c : Dev nD) (t : Fin cfg0.N) (hf : (cfg0.win 6).flush t = true) :
    (dat0 V c).flushed 6 t = ((cfg0.win 6).blk t).view.read (Elt Ideal) ((scAt V c 19 last_lt).1 : S8x64.Idx → Elt Ideal .f32) := by
  obtain rfl : t = ⟨19, last_lt⟩ := Fin.ext (last_of_flush6 t hf)
  show (cfg0.win 6).cut (cfg0.grid.coords ⟨19, last_lt⟩) ((dat0 V c).after 6 ⟨19, last_lt⟩) = _
  rw [after0_6]
  refine fun_eq_of_ix2 (n0 := 8) (n1 := 64) _ _ fun a q => ?_
  show (scAt V c 19 last_lt).1 (ix2 a q) = (scAt V c 19 last_lt).1 (((cfg0.win 6).blk ⟨19, last_lt⟩).view.emb (ix2 a q))
  rw [emb6]

/-- The one write-back of the squares' sums. -/
theorem flushed7_eq (c : Dev nD) (t : Fin cfg0.N) (hf : (cfg0.win 7).flush t = true) :
    (dat0 V c).flushed 7 t = ((cfg0.win 7).blk t).view.read (Elt Ideal) ((scAt V c 19 last_lt).2 : S8x64.Idx → Elt Ideal .f32) := by
  obtain rfl : t = ⟨19, last_lt⟩ := Fin.ext (last_of_flush7 t hf)
  show (cfg0.win 7).cut (cfg0.grid.coords ⟨19, last_lt⟩) ((dat0 V c).after 7 ⟨19, last_lt⟩) = _
  rw [after0_7]
  refine fun_eq_of_ix2 (n0 := 8) (n1 := 64) _ _ fun a q => ?_
  show (scAt V c 19 last_lt).2 (ix2 a q) = (scAt V c 19 last_lt).2 (((cfg0.win 7).blk ⟨19, last_lt⟩).view.emb (ix2 a q))
  rw [emb7]

theorem mem_blk6 (t : Fin cfg0.N) (i : S8x64.Idx) :
    i ∈ ((cfg0.win 6).blk t).view.set ↔ ∀ a : Fin 2, win0_6.index t a * S8x64.size a ≤ (i a).val ∧ (i a).val < win0_6.index t a * S8x64.size a + S8x64.size a := by
  show i ∈ ((View.whole main_v22_1).slice (win0_6.rect t)).set ↔ _
  rw [View.set_slice_whole, Rect.mem_set_unit]
  exact Iff.rfl

theorem mem_blk7 (t : Fin cfg0.N) (i : S8x64.Idx) :
    i ∈ ((cfg0.win 7).blk t).view.set ↔ ∀ a : Fin 2, win0_7.index t a * S8x64.size a ≤ (i a).val ∧ (i a).val < win0_7.index t a * S8x64.size a + S8x64.size a := by
  show i ∈ ((View.whole main_v22_2).slice (win0_7.rect t)).set ↔ _
  rw [View.set_slice_whole, Rect.mem_set_unit]
  exact Iff.rfl

/-- The last point's block is the whole sums array. -/
theorem cover6 (i : S8x64.Idx) : ∃ t : Fin cfg0.N, (cfg0.win 6).flush t = true ∧ i ∈ ((cfg0.win 6).blk t).view.set := by
  have hi0 : (i 0).val < 8 := idx2_lt0 i
  have hi1 : (i 1).val < 64 := idx2_lt1 i
  refine ⟨⟨19, last_lt⟩, (flush0_6 _).mpr rfl, ?_⟩
  rw [mem_blk6]
  obtain ⟨-, -, -, -, -, -, e0, e1, -⟩ := idx_whole ⟨19, last_lt⟩
  intro a
  match a with
  | ⟨0, _⟩ =>
    show win0_6.index _ (0 : Fin 2) * 8 ≤ (i 0).val ∧ (i 0).val < win0_6.index _ (0 : Fin 2) * 8 + 8
    rw [e0]; omega
  | ⟨1, _⟩ =>
    show win0_6.index _ (1 : Fin 2) * 64 ≤ (i 1).val ∧ (i 1).val < win0_6.index _ (1 : Fin 2) * 64 + 64
    rw [e1]; omega

/-- The last point's block is the whole squares' sums array. -/
theorem cover7 (i : S8x64.Idx) : ∃ t : Fin cfg0.N, (cfg0.win 7).flush t = true ∧ i ∈ ((cfg0.win 7).blk t).view.set := by
  have hi0 : (i 0).val < 8 := idx2_lt0 i
  have hi1 : (i 1).val < 64 := idx2_lt1 i
  refine ⟨⟨19, last_lt⟩, (flush0_7 _).mpr rfl, ?_⟩
  rw [mem_blk7]
  obtain ⟨-, -, -, -, -, -, -, -, e0, e1⟩ := idx_whole ⟨19, last_lt⟩
  intro a
  match a with
  | ⟨0, _⟩ =>
    show win0_7.index _ (0 : Fin 2) * 8 ≤ (i 0).val ∧ (i 0).val < win0_7.index _ (0 : Fin 2) * 8 + 8
    rw [e0]; omega
  | ⟨1, _⟩ =>
    show win0_7.index _ (1 : Fin 2) * 64 ≤ (i 1).val ∧ (i 1).val < win0_7.index _ (1 : Fin 2) * 64 + 64
    rw [e1]; omega

/-- The sums array after the region is the sums accumulator after the last point. -/
theorem arr6_fun (c : Dev nD) : (dat0 V c).arrAt 6 cfg0.N = ((scAt V c 19 last_lt).1 : S8x64.Idx → Elt Ideal .f32) :=
  (dat0 V c).arrAt_eq_of_cover 6 _ (flushed6_eq V c) cover6

/-- The squares' sums array after the region is the squares accumulator after the last point. -/
theorem arr7_fun (c : Dev nD) : (dat0 V c).arrAt 7 cfg0.N = ((scAt V c 19 last_lt).2 : S8x64.Idx → Elt Ideal .f32) :=
  (dat0 V c).arrAt_eq_of_cover 7 _ (flushed7_eq V c) cover7

theorem arr6 (c : Dev nD) (a : Fin 8) (j : Fin 64) :
    (dat0 V c).arrAt 6 cfg0.N (ix2 a j) = BNSpec.acc (Ideal.ofBits .f32 0x3E000000#32) (fun t => BNSpec.tileSum (Yof V c) t j) 19 (by norm_num) :=
  (congrFun (arr6_fun V c) (ix2 a j)).trans (sc_apply V c 19 last_lt (by norm_num) a j).1

theorem arr7 (c : Dev nD) (a : Fin 8) (j : Fin 64) :
    (dat0 V c).arrAt 7 cfg0.N (ix2 a j) = BNSpec.acc (Ideal.ofBits .f32 0x3E000000#32) (fun t => BNSpec.tileSum (fun r j => Yof V c r j * Yof V c r j) t j) 19 (by norm_num) :=
  (congrFun (arr7_fun V c) (ix2 a j)).trans (sc_apply V c 19 last_lt (by norm_num) a j).2

end Cert.KernelIdeal.Val
end
-- ==== Proof.KVal1.lean ====
/-
  The kernel program's result array at an index, at the ideal instance, from what the first region left.

  Between the two regions the host takes, column by column, the sum of the eight summary rows of each statistic,
  divides by the row count to get the mean μ and the mean of squares, forms (mean of squares − μ·μ) + ε and its
  reciprocal square root σ, and lays μ, σ, the scale γ and the shift β out as one-row matrices. The second region's
  twenty points each take a [5000,64] block of the pre-normalisation array y and the four rows and store
  max (((y − μ)·σ)·γ + β) 0; the twenty blocks tile the result array, so the array ends at that function of
  (row, column) everywhere.
-/
import proofs.«175345_j15779709845544_1_alg».proof.Proof.KI.Run
import proofs.«175345_j15779709845544_1_alg».proof.Proof.Payload
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
set_option maxRecDepth 16384
noncomputable section
namespace Cert.KernelIdeal.Val
open Cert.KernelIdeal Cert.KernelIdeal.Gen Cert.KernelIdeal.Hand Idealize.ShloMosaic Idealize.ShloMosaic.TcCoe Idealize.SL.Sem Idealize.ShloMosaic.ValueIdx
open Idealize.ShloMosaic.Pipeline (Dat)
variable (m : (ℓ : Loc nD τ sig) → Buf (Elt Ideal) ℓ) (ρ : Dev nD → PrngReg)

/-- column mean from the 8 summary rows the first region left in main_v22_1 -/
def muOf (c : Dev nD) (j : Fin 64) : EReal := Ideal.div (∑ a : Fin 8, V2 m ρ c main_v22_1 (ix2 a j)) (Ideal.ofBits .f32 0x47C35000#32)
/-- column mean of squares from main_v22_2 -/
def sqOf (c : Dev nD) (j : Fin 64) : EReal := Ideal.div (∑ a : Fin 8, V2 m ρ c main_v22_2 (ix2 a j)) (Ideal.ofBits .f32 0x47C35000#32)

namespace Norm

/-! ## The host operations between the regions -/

/-- the sum of the eight summary rows, column by column -/
abbrev colSum (x : FVec Ideal S8x64 .f32) : FVec Ideal S64 .f32 :=
  Host.reduceAdd (F := Ideal) x (constant (F := Ideal) S_ .f32 0x00000000#32) reducesTo_S8x64_S64_d0 h_S_
/-- a scalar word on every column -/
abbrev splat (b : BitVec 32) : FVec Ideal S64 .f32 := broadcastInDim S64 ![] bcast_S_S64 (constant (F := Ideal) S_ .f32 b)
/-- the mean row: the column sums over the row count -/
abbrev meanRow (x : FVec Ideal S8x64 .f32) : FVec Ideal S64 .f32 := Host.divf (colSum x) (splat 0x47C35000#32)
/-- the reciprocal deviation row: the reciprocal square root of (mean of squares − mean · mean) + ε -/
abbrev rdevRow (x y : FVec Ideal S8x64 .f32) : FVec Ideal S64 .f32 :=
  Host.rsqrt (addf (subf (meanRow y) (mulf (meanRow x) (meanRow x))) (splat 0x3727C5AC#32))

set_option maxHeartbeats 4000000 in
/-- The mean row the second region is entered with, as a term of the first statistic. -/
theorem v34_eq (c : Dev nD) : V3 m ρ c main_v34 = shapeCast S1x64 (meanRow (V2 m ρ c main_v22_1)) shapeCasts_S64_S1x64 := by
  show StableHlo.after hostOps1 (W2 m ρ c) (Proc.devRef .tc main_v34) = _
  after_results
  rfl
set_option maxHeartbeats 4000000 in
/-- The reciprocal deviation row, as a term of the two statistics. -/
theorem v35_eq (c : Dev nD) : V3 m ρ c main_v35 = shapeCast S1x64 (rdevRow (V2 m ρ c main_v22_1) (V2 m ρ c main_v22_2)) shapeCasts_S64_S1x64 := by
  show StableHlo.after hostOps1 (W2 m ρ c) (Proc.devRef .tc main_v35) = _
  after_results
  rfl
set_option maxHeartbeats 4000000 in
/-- The scale row is the scale argument as a one-row matrix. -/
theorem v36_eq (c : Dev nD) : V3 m ρ c main_v36 = shapeCast S1x64 (V2 m ρ c main_arg4) shapeCasts_S64_S1x64 := by
  show StableHlo.after hostOps1 (W2 m ρ c) (Proc.devRef .tc main_v36) = _
  after_results
  rfl
set_option maxHeartbeats 4000000 in
/-- The shift row is the shift argument as a one-row matrix. -/
theorem v37_eq (c : Dev nD) : V3 m ρ c main_v37 = shapeCast S1x64 (V2 m ρ c main_arg5) shapeCasts_S64_S1x64 := by
  show StableHlo.after hostOps1 (W2 m ρ c) (Proc.devRef .tc main_v37) = _
  after_results
  rfl
/-- No host operation between the regions writes the pre-normalisation array. -/
theorem v22_0_eq (c : Dev nD) : V3 m ρ c main_v22_0 = V2 m ρ c main_v22_0 :=
  StableHlo.after_of_writes_sub hostOps1 _ hostOps1_writes (by decide)
/-- The scale argument is as launched when the first region ends. -/
theorem arg4_eq (c : Dev nD) : V2 m ρ c main_arg4 = m ((c.tc : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
/-- The shift argument is as launched when the first region ends. -/
theorem arg5_eq (c : Dev nD) : V2 m ρ c main_arg5 = m ((c.tc : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-- The column sum of the eight rows at column j: the initial value is zero. -/
theorem colSum_apply (x : FVec Ideal S8x64 .f32) (j : Fin 64) : colSum x (ix1 j) = ∑ a : Fin 8, x (ix2 a j) := by
  simp only [Host.reduceAdd, Ideal.hostReduceAdd_def]
  rw [Ideal.hostReduceAdd_single reducesTo_S8x64_S64_d0 (by decide)]
  rw [show (constant (F := Ideal) S_ .f32 0x00000000#32 (Shape.Idx.first h_S_) : EReal) = Ideal.ofBits .f32 0x00000000#32 from rfl,
    Ideal.ofBits_zero_f32, zero_add]
  refine Finset.sum_congr rfl fun k _ => ?_
  exact congrArg x (funext fun a => Fin.ext (by match a with | ⟨0, _⟩ => rfl | ⟨1, _⟩ => rfl))
/-- A scalar word spread over the columns reads that word at every column. -/
theorem splat_apply (b : BitVec 32) (j : Fin 64) : splat b (ix1 j) = Ideal.ofBits .f32 b := by
  exact broadcastInDim_apply _ bcast_S_S64 (constant (F := Ideal) S_ .f32 b) (ix1 j) ix0 (fun a => a.elim0)
/-- The mean row at column j. -/
theorem meanRow_apply (x : FVec Ideal S8x64 .f32) (j : Fin 64) :
    meanRow x (ix1 j) = Ideal.div (∑ a : Fin 8, x (ix2 a j)) (Ideal.ofBits .f32 0x47C35000#32) := by
  show Ideal.div (colSum x (ix1 j)) (splat 0x47C35000#32 (ix1 j)) = _
  rw [colSum_apply, splat_apply]
/-- The reciprocal deviation row at column j. -/
theorem rdevRow_apply (x y : FVec Ideal S8x64 .f32) (j : Fin 64) :
    rdevRow x y (ix1 j) = Ideal.rsqrt ((meanRow y (ix1 j) - meanRow x (ix1 j) * meanRow x (ix1 j)) + Ideal.ofBits .f32 0x3727C5AC#32) := by
  show Ideal.rsqrt ((meanRow y (ix1 j) - meanRow x (ix1 j) * meanRow x (ix1 j)) + splat 0x3727C5AC#32 (ix1 j)) = _
  rw [splat_apply]

/-- The mean row the second region is entered with, at column j. -/
theorem mean_apply (c : Dev nD) (j : Fin 64) : V3 m ρ c main_v34 (ix2 0 j) = muOf m ρ c j := by
  rw [v34_eq, shapeCast_a_1a_apply, meanRow_apply]
  rfl
/-- The reciprocal deviation row the second region is entered with, at column j. -/
theorem rdev_apply (c : Dev nD) (j : Fin 64) :
    V3 m ρ c main_v35 (ix2 0 j) = Ideal.rsqrt ((sqOf m ρ c j - muOf m ρ c j * muOf m ρ c j) + Ideal.ofBits .f32 0x3727C5AC#32) := by
  rw [v35_eq, shapeCast_a_1a_apply, rdevRow_apply, meanRow_apply, meanRow_apply]
  rfl
/-- The scale row at column j. -/
theorem scale_apply (c : Dev nD) (j : Fin 64) : V3 m ρ c main_v36 (ix2 0 j) = m ((c.tc : Thread nD τ).loc main_arg4) (ix1 j) := by
  rw [v36_eq, shapeCast_a_1a_apply, arg4_eq]
/-- The shift row at column j. -/
theorem shift_apply (c : Dev nD) (j : Fin 64) : V3 m ρ c main_v37 (ix2 0 j) = m ((c.tc : Thread nD τ).loc main_arg5) (ix1 j) := by
  rw [v37_eq, shapeCast_a_1a_apply, arg5_eq]

/-! ## The second region: every point's blocks, and the array its write-backs leave -/

section Blocks
variable (V : (c : Dev nD) → (b : Ref sig .tc) → Buf (Elt Ideal) ((c : Thread nD τ).loc b))

/-- The index maps over the grid: the two [5000,64] windows sit at block row t, the four rows at block (0,0). -/
theorem idx_facts : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The grid has twenty points. -/
theorem lt_N (t : Fin cfg1.N) : t.val < 20 := t.isLt.trans_eq N_1

/-- Row p of block t is row 5000·t + p of the array. -/
theorem row_lt (t : Fin cfg1.N) (p : Fin 5000) : 5000 * t.val + p.val < 100000 := by
  have := lt_N t; have := p.isLt; omega

/-- Block t of the pre-normalisation array, at (p, q). -/
theorem blk0_apply (c : Dev nD) (t : Fin cfg1.N) (p : Fin 5000) (q : Fin 64) :
    (iblk1 V c 0 t : Vec Ideal S5000x64 .f32) (ix2 p q) = V c main_v22_0 (ix2 ⟨5000 * t.val + p.val, row_lt t p⟩ q) := by
  obtain ⟨e0, e1, -⟩ := idx_facts t
  unfold iblk1
  rw [View.read_apply]
  show V c main_v22_0 _ = V c main_v22_0 _
  congr 1
  funext a; apply Fin.ext
  match a with
  | ⟨0, _⟩ => show win1_0.index t (0 : Fin 2) * 5000 + 1 * p.val = 5000 * t.val + p.val; rw [e0]; omega
  | ⟨1, _⟩ => show win1_0.index t (1 : Fin 2) * 64 + 1 * q.val = q.val; rw [e1]; omega
/-- The mean row's block is the row. -/
theorem blk1_apply (c : Dev nD) (t : Fin cfg1.N) (q : Fin 64) :
    (iblk1 V c 1 t : Vec Ideal S1x64 .f32) (ix2 0 q) = V c main_v34 (ix2 0 q) := by
  obtain ⟨-, -, -, -, e0, e1, -⟩ := idx_facts t
  unfold iblk1
  rw [View.read_apply]
  show V c main_v34 _ = V c main_v34 _
  congr 1
  funext a; apply Fin.ext
  match a with
  | ⟨0, _⟩ => show win1_1.index t (0 : Fin 2) * 1 + 1 * 0 = 0; rw [e0]
  | ⟨1, _⟩ => show win1_1.index t (1 : Fin 2) * 64 + 1 * q.val = q.val; rw [e1]; omega
/-- The reciprocal deviation row's block is the row. -/
theorem blk2_apply (c : Dev nD) (t : Fin cfg1.N) (q : Fin 64) :
    (iblk1 V c 2 t : Vec Ideal S1x64 .f32) (ix2 0 q) = V c main_v35 (ix2 0 q) := by
  obtain ⟨-, -, -, -, -, -, e0, e1, -⟩ := idx_facts t
  unfold iblk1
  rw [View.read_apply]
  show V c main_v35 _ = V c main_v35 _
  congr 1
  funext a; apply Fin.ext
  match a with
  | ⟨0, _⟩ => show win1_2.index t (0 : Fin 2) * 1 + 1 * 0 = 0; rw [e0]
  | ⟨1, _⟩ => show win1_2.index t (1 : Fin 2) * 64 + 1 * q.val = q.val; rw [e1]; omega
/-- The scale row's block is the row. -/
theorem blk3_apply (c : Dev nD) (t : Fin cfg1.N) (q : Fin 64) :
    (iblk1 V c 3 t : Vec Ideal S1x64 .f32) (ix2 0 q) = V c main_v36 (ix2 0 q) := by
  obtain ⟨-, -, -, -, -, -, -, -, e0, e1, -⟩ := idx_facts t
  unfold iblk1
  rw [View.read_apply]
  show V c main_v36 _ = V c main_v36 _
  congr 1
  funext a; apply Fin.ext
  match a with
  | ⟨0, _⟩ => show win1_3.index t (0 : Fin 2) * 1 + 1 * 0 = 0; rw [e0]
  | ⟨1, _⟩ => show win1_3.index t (1 : Fin 2) * 64 + 1 * q.val = q.val; rw [e1]; omega
/-- The shift row's block is the row. -/
theorem blk4_apply (c : Dev nD) (t : Fin cfg1.N) (q : Fin 64) :
    (iblk1 V c 4 t : Vec Ideal S1x64 .f32) (ix2 0 q) = V c main_v37 (ix2 0 q) := by
  obtain ⟨-, -, -, -, -, -, -, -, -, -, e0, e1⟩ := idx_facts t
  unfold iblk1
  rw [View.read_apply]
  show V c main_v37 _ = V c main_v37 _
  congr 1
  funext a; apply Fin.ext
  match a with
  | ⟨0, _⟩ => show win1_4.index t (0 : Fin 2) * 1 + 1 * 0 = 0; rw [e0]
  | ⟨1, _⟩ => show win1_4.index t (1 : Fin 2) * 64 + 1 * q.val = q.val; rw [e1]; omega

/-- The normalised, rectified entry at row r and column j, from the pre-normalisation array and the four rows. -/
def normAt (x : Vec Ideal S100000x64 .f32) (mu sg ga be : Vec Ideal S1x64 .f32) (r : Fin 100000) (j : Fin 64) : EReal :=
  max ((((x (ix2 r j) - mu (ix2 0 j)) * sg (ix2 0 j)) * ga (ix2 0 j)) + be (ix2 0 j)) 0
/-- The whole output array, from the arrays the region is entered with. -/
def normArr (c : Dev nD) : Buf (Elt Ideal) ((cfg1.win 5).arr.view.loc (c.tc : Thread nD τ)) :=
  fun i => normAt (V c main_v22_0) (V c main_v34) (V c main_v35) (V c main_v36) (V c main_v37) (i 0) (i 1)

/-- Where block t of the output sits in the array. -/
theorem emb5 (t : Fin cfg1.N) (p : Fin 5000) (q : Fin 64) :
    ((cfg1.win 5).blk t).view.emb (ix2 p q) = ix2 ⟨5000 * t.val + p.val, row_lt t p⟩ q := by
  obtain ⟨-, -, e0, e1, -⟩ := idx_facts t
  funext a; apply Fin.ext
  match a with
  | ⟨0, _⟩ => show win1_5.index t (0 : Fin 2) * 5000 + 1 * p.val = 5000 * t.val + p.val; rw [e0]; omega
  | ⟨1, _⟩ => show win1_5.index t (1 : Fin 2) * 64 + 1 * q.val = q.val; rw [e1]; omega

/-- What point t writes back is block t of the whole output array. -/
theorem flushed_eq (c : Dev nD) (t : Fin cfg1.N) :
    (dat1 V c).flushed 5 t = ((cfg1.win 5).blk t).view.read (Elt Ideal) (normArr V c) := by
  show (cfg1.win 5).cut (cfg1.grid.coords t) ((dat1 V c).after 5 t) = _
  rw [after1_5]
  funext y
  obtain ⟨p, q, rfl⟩ : ∃ (p : Fin 5000) (q : Fin 64), y = ix2 p q := ⟨y 0, y 1, eq_ix2 y⟩
  rw [View.read_apply, emb5]
  show k1_pay1 (F := Ideal) (iblk1 V c 0 t) (iblk1 V c 1 t) (iblk1 V c 2 t) (iblk1 V c 3 t) (iblk1 V c 4 t) (ix2 p q)
    = normAt (V c main_v22_0) (V c main_v34) (V c main_v35) (V c main_v36) (V c main_v37) ⟨5000 * t.val + p.val, row_lt t p⟩ q
  refine (Pay.k1_apply (iblk1 V c 0 t) (iblk1 V c 1 t) (iblk1 V c 2 t) (iblk1 V c 3 t) (iblk1 V c 4 t) p q).trans ?_
  rw [blk0_apply, blk1_apply, blk2_apply, blk3_apply, blk4_apply]
  rfl

/-- An index of the array is in point t's block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v38).slice (win1_5.rect t)).set ↔ _
  rw [View.set_slice_whole, Rect.mem_set_unit]
  exact Iff.rfl

/-- Row r lies in the block of point r / 5000: the twenty blocks tile the array, so it ends at the whole output array. -/
theorem final (c : Dev nD) : (dat1 V c).arrAt 5 cfg1.N = normArr V c :=
  (dat1 V c).arrAt_eq_of_cover 5 (normArr V c) (fun t _ => flushed_eq V c t) fun i => by
    have hi0 : (i 0).val < 100000 := (i 0).isLt
    have hi1 : (i 1).val < 64 := (i 1).isLt
    have hN : cfg1.N = 20 := N_1
    refine ⟨⟨(i 0).val / 5000, by rw [hN]; omega⟩, flush1_5 _, ?_⟩
    rw [mem_blk]
    obtain ⟨-, -, e0, e1, -⟩ := idx_facts ⟨(i 0).val / 5000, by rw [hN]; omega⟩
    intro a
    match a with
    | ⟨0, _⟩ =>
      show win1_5.index _ (0 : Fin 2) * 5000 ≤ (i 0).val ∧ (i 0).val < win1_5.index _ (0 : Fin 2) * 5000 + 5000
      rw [e0]
      show (i 0).val / 5000 * 5000 ≤ (i 0).val ∧ (i 0).val < (i 0).val / 5000 * 5000 + 5000
      omega
    | ⟨1, _⟩ =>
      show win1_5.index _ (1 : Fin 2) * 64 ≤ (i 1).val ∧ (i 1).val < win1_5.index _ (1 : Fin 2) * 64 + 64
      rw [e1]
      omega

end Blocks

end Norm

/-! ## The result array at an index -/

/-- The result array at row r and column j: the pre-normalisation entry less the column mean, times the reciprocal
    deviation, times the scale, plus the shift, rectified. -/
theorem out_apply (c : Dev nD) (r : Fin 100000) (j : Fin 64) :
    (by exact W4 m ρ c (Proc.devRef .tc main_v38) (ix2 r j) : EReal)
      = max (((((by exact V2 m ρ c main_v22_0 (ix2 r j) : EReal) - muOf m ρ c j) * Ideal.rsqrt ((sqOf m ρ c j - muOf m ρ c j * muOf m ρ c j) + Ideal.ofBits .f32 0x3727C5AC#32))
              * (by exact m ((c.tc : Thread nD τ).loc main_arg4) (ix1 j) : EReal)) + (by exact m ((c.tc : Thread nD τ).loc main_arg5) (ix1 j) : EReal)) 0 := by
  have e : W4 m ρ c (Proc.devRef .tc main_v38) = Norm.normArr (V3 m ρ) c := (W4_arr m ρ c 5).trans (Norm.final (V3 m ρ) c)
  rw [e]
  show Norm.normAt (V3 m ρ c main_v22_0) (V3 m ρ c main_v34) (V3 m ρ c main_v35) (V3 m ρ c main_v36) (V3 m ρ c main_v37) r j = _
  unfold Norm.normAt
  rw [Norm.v22_0_eq, Norm.mean_apply, Norm.rdev_apply, Norm.scale_apply, Norm.shift_apply]

end Cert.KernelIdeal.Val
end
-- ==== Proof.lean ====
/-
  The certificate of a GraphSAGE-style layer with batch normalisation: for node features h [100000, 64], weights
  W_self, W_neigh [64, 64], bias b, scale gamma, shift beta and two edge index arrays, the neighbour mean h_n (a gather
  of h by the source indices, scatter-added by the destination indices, divided by the clamped in-degree) enters the
  linear map Y = h W_self^T + h_n W_neigh^T + b; each column of Y is normalised by its mean and biased variance over
  the 100000 rows, scaled, shifted and clamped at zero.

  The kernel program computes the neighbour mean on the host exactly as the reference does, then runs two grid
  kernels of 20 tiles of 5000 rows.  The first stores each tile of Y and accumulates, in two [8, 64] accumulators
  cleared at the first tile, an eighth of the tile's column sums of Y and of Y^2 in each of the 8 rows; at the last tile
  it copies the accumulators out.  The host sums the 8 rows, divides by the row count, takes the variance as the mean of
  squares minus the squared mean, adds the constant and takes the reciprocal square root.  The second kernel
  normalises each tile.  The reference takes the mean, then the mean of the squared deviations.

  At the ideal instance the two agree on finite inputs: eight eighths of a real sum are the sum, the tiles partition
  the rows, and E[Y^2] - E[Y]^2 = E[(Y - E[Y])^2] over the reals; the precondition makes every input, hence the neighbour
  mean (a clamped gather, finite sums, a divisor at least one) and Y, real-valued.  The identity fails at infinities, so
  the precondition is used.

  The frames: each kernel body is run symbolically in its three control cases (first, middle, last tile); the first
  region's invariant carries the accumulators' contents from tile to tile; the program's run is composed of the two
  host stretches and the two regions, and every argument array ends as launched.
-/
import proofs.«175345_j15779709845544_1_alg».proof.Defs
import proofs.«175345_j15779709845544_1_alg».proof.Proof.Gen.Kernel
import proofs.«175345_j15779709845544_1_alg».proof.Proof.Gen.KernelIdeal
import proofs.«175345_j15779709845544_1_alg».proof.Proof.Gen.ReferenceIdeal
import proofs.«175345_j15779709845544_1_alg».proof.Proof.Gen.Pre_finite_inputs
import proofs.«175345_j15779709845544_1_alg».proof.Proof.KB.Run
import proofs.«175345_j15779709845544_1_alg».proof.Proof.KI.Run
import proofs.«175345_j15779709845544_1_alg».proof.Proof.RefValue
import proofs.«175345_j15779709845544_1_alg».proof.Proof.Finite
import proofs.«175345_j15779709845544_1_alg».proof.Proof.Spec
import proofs.«175345_j15779709845544_1_alg».proof.Proof.Payload
import proofs.«175345_j15779709845544_1_alg».proof.Proof.KValHost
import proofs.«175345_j15779709845544_1_alg».proof.Proof.KVal0
import proofs.«175345_j15779709845544_1_alg».proof.Proof.KVal1

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

section
variable (m : (ℓ : Loc Cert.KernelIdeal.nD Cert.KernelIdeal.τ Cert.KernelIdeal.sig) → Buf (Elt Ideal) ℓ) (c : Dev Cert.KernelIdeal.nD)

/-- The layer's inputs as plain functions of row and column. -/
abbrev hOf : BNSpec.Mat := fun r k => m ((c.tc : Thread Cert.KernelIdeal.nD Cert.KernelIdeal.τ).loc Cert.KernelIdeal.main_arg0) (ix2 r k)
abbrev hnOf : BNSpec.Mat := fun r k => Cert.ReferenceIdeal.Read.val_main_v18 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (ix2 r k)
abbrev wsOf : BNSpec.Wt := fun j k => m ((c.tc : Thread Cert.KernelIdeal.nD Cert.KernelIdeal.τ).loc Cert.KernelIdeal.main_arg1) (ix2 j k)
abbrev wnOf : BNSpec.Wt := fun j k => m ((c.tc : Thread Cert.KernelIdeal.nD Cert.KernelIdeal.τ).loc Cert.KernelIdeal.main_arg3) (ix2 j k)
abbrev bOf : BNSpec.Vc := fun j => m ((c.tc : Thread Cert.KernelIdeal.nD Cert.KernelIdeal.τ).loc Cert.KernelIdeal.main_arg2) (ix1 j)
abbrev gOf : BNSpec.Vc := fun j => m ((c.tc : Thread Cert.KernelIdeal.nD Cert.KernelIdeal.τ).loc Cert.KernelIdeal.main_arg4) (ix1 j)
abbrev beOf : BNSpec.Vc := fun j => m ((c.tc : Thread Cert.KernelIdeal.nD Cert.KernelIdeal.τ).loc Cert.KernelIdeal.main_arg5) (ix1 j)

/-- Under the precondition every float input, and with them the neighbour mean, is real-valued. -/
theorem reals (hpre : Cert.Pre_KernelIdeal m) :
    (∀ r k, ∃ x : ℝ, hOf m c r k = (x : EReal)) ∧ (∀ r k, ∃ x : ℝ, hnOf m c r k = (x : EReal))
      ∧ (∀ j k, ∃ x : ℝ, wsOf m c j k = (x : EReal)) ∧ (∀ j k, ∃ x : ℝ, wnOf m c j k = (x : EReal))
      ∧ (∀ j, ∃ x : ℝ, bOf m c j = (x : EReal)) := by
  obtain ⟨h0, h1, h2, h3, -, -⟩ := Cert.Finite.of_pre _ _ _ _ _ _ _ _ (hpre c)
  exact ⟨fun r k => h0 _, fun r k => Cert.Finite.hn_real _ _ _ h0 _, fun j k => h1 _, fun j k => h3 _, fun j => h2 _⟩
end

section
open Cert.KernelIdeal Cert.KernelIdeal.Hand Cert.KernelIdeal.Val
variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The first region's output as a function of its entry arrays is the linear map of the program's arguments: the
    host stretch before it only transposes the weights, reshapes the bias and computes the neighbour mean. -/
theorem Yof_eq : Yof (V1 m ρ) c = BNSpec.linK (hOf m c) (hnOf m c) (wsOf m c) (wnOf m c) (bOf m c) := by
  have e0 : (fun (r : Fin 100000) (k : Fin 64) => V1 m ρ c main_arg0 (ix2 r k)) = hOf m c := by
    funext r k; rw [arg0_eq m ρ c]
  have e1 : (fun (r : Fin 100000) (k : Fin 64) => V1 m ρ c main_v18 (ix2 r k)) = hnOf m c := by
    funext r k; rw [v18_eq m ρ c]
  have e2 : (fun (j k : Fin 64) => V1 m ρ c main_v19 (ix2 k j)) = wsOf m c := by
    funext j k; exact v19_apply m ρ c k j
  have e3 : (fun (j k : Fin 64) => V1 m ρ c main_v20 (ix2 k j)) = wnOf m c := by
    funext j k; exact v20_apply m ρ c k j
  have e4 : (fun (j : Fin 64) => V1 m ρ c main_v21 (ix2 0 j)) = bOf m c := by
    funext j; exact v21_apply m ρ c j
  unfold Yof
  rw [e0, e1, e2, e3, e4]

/-- The kernel program's result, index by index: the one-pass specification of the linear map of the arguments. -/
theorem kernel_value (r : Fin 100000) (j : Fin 64) :
    W4 m ρ c (Proc.devRef .tc main_v38) (ix2 r j)
      = BNSpec.outK (Ideal.ofBits .f32 0x47C35000#32) (Ideal.ofBits .f32 0x3E000000#32) (Ideal.ofBits .f32 0x3727C5AC#32)
          (BNSpec.linK (hOf m c) (hnOf m c) (wsOf m c) (wnOf m c) (bOf m c)) (gOf m c) (beOf m c) r j := by
  have e5 : V2 m ρ c main_v22_0 = (dat0 (V1 m ρ) c).arrAt 5 cfg0.N := W2_arr m ρ c 5
  have e6 : V2 m ρ c main_v22_1 = (dat0 (V1 m ρ) c).arrAt 6 cfg0.N := W2_arr m ρ c 6
  have e7 : V2 m ρ c main_v22_2 = (dat0 (V1 m ρ) c).arrAt 7 cfg0.N := W2_arr m ρ c 7
  rw [out_apply]
  unfold muOf sqOf
  rw [e5, e6, e7, arr5]
  simp only [arr6, arr7]
  rw [Yof_eq]
  rfl
end

/-- At the ideal instance, from memories agreeing on the arguments, both programs end with the same result: the
    kernel's is the one-pass specification, the reference's the two-pass one, equal on finite inputs. -/
theorem algebraic : Cert.algebraic_KernelIdeal_ReferenceIdeal := by
  intro m ρ m' ρ' hpre hagree
  refine ⟨fun c => Cert.KernelIdeal.Hand.W4 m ρ c (Proc.devRef .tc Cert.KernelIdeal.main_v38), ?_, ?_⟩
  · refine (θ_run Cert.KernelIdeal.defs _ _).mono (fun _ h c => ?_) (Cert.KernelIdeal.Hand.run_all (F := Ideal) m ρ)
    exact ⟨h c _ (Cert.KernelIdeal.Hand.mem_uc Cert.KernelIdeal.main_v38 (by decide)),
      (h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c),
      (h c _ (Cert.KernelIdeal.Hand.mem_uc Cert.KernelIdeal.main_arg3 (by decide))).trans (Cert.KernelIdeal.Hand.W4_main_arg3 m ρ c),
      (h c _ (Cert.KernelIdeal.Hand.mem_uc Cert.KernelIdeal.main_arg4 (by decide))).trans (Cert.KernelIdeal.Hand.W4_main_arg4 m ρ c),
      (h c _ (Cert.KernelIdeal.Hand.mem_uc Cert.KernelIdeal.main_arg5 (by decide))).trans (Cert.KernelIdeal.Hand.W4_main_arg5 m ρ c),
      (h c _ (Cert.KernelIdeal.Hand.mem_uc Cert.KernelIdeal.main_arg6 (by decide))).trans (Cert.KernelIdeal.Hand.W4_main_arg6 m ρ c),
      (h c _ (Cert.KernelIdeal.Hand.mem_uc Cert.KernelIdeal.main_arg7 (by decide))).trans (Cert.KernelIdeal.Hand.W4_main_arg7 m ρ c)⟩
  · refine (θ_run Cert.ReferenceIdeal.defs _ _).mono (fun _ h c => ⟨(h c).1.trans ?_, (h c).2⟩)
      (Cert.ReferenceIdeal.Value.run (F := Ideal) m' ρ')
    funext i
    obtain ⟨r, j, rfl⟩ : ∃ (r : Fin 100000) (j : Fin 64), i = ix2 r j := ⟨i 0, i 1, eq_ix2 i⟩
    obtain ⟨fh, fhn, fws, fwn, fb⟩ := reals m c hpre
    rw [Cert.ReferenceIdeal.RefValue.res_apply, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact ((kernel_value m ρ c r j).trans (congrFun (congrFun (BNSpec.outK_linK_eq_outR_linR (hOf m c) (hnOf m c) (wsOf m c) (wnOf m c)
      (bOf m c) (gOf m c) (beOf m c) _ _ _ Cert.KernelIdeal.Pay.n_rows Cert.KernelIdeal.Pay.eighth fh fhn fws fwn fb) r) j)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
